-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4096x4096 .f32) (main_arg1 : FVec F S4096x4096 .f32) (main_arg2 : FVec F S4096 .f32) (main_arg3 : FVec F S4096x4096 .f32) (main_arg4 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S4096x4096 : Shape := ⟨2, ![4096, 4096]⟩
abbrev S4096 : Shape := ⟨1, ![4096]⟩
abbrev S1x4096 : Shape := ⟨2, ![1, 4096]⟩
abbrev S512x2048 : Shape := ⟨2, ![512, 2048]⟩
abbrev S1x512 : Shape := ⟨2, ![1, 512]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S1x4096, .f32⟩
  | .hbm, ⟨6, _⟩ => ⟨S4096x4096, .f32⟩
  | .hbm, ⟨7, _⟩ => ⟨S1x4096, .f32⟩
  | .hbm, ⟨8, _⟩ => ⟨S4096x4096, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S1x512, .f32⟩
  | .local _ .vmem, ⟨14, _⟩ => ⟨S1x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 8, 2], ![false, false, false]⟩

def k1_cond2 (i : grid1.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4096_S1x4096 : S4096.ShapeCasts S1x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S512x2048_S512x2048 : S512x2048.ShapeCasts S512x2048
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x4096.size a
  hwx0_0 : ∀ i : grid0.Coords, EltTy.bits .f32 = 32 ∨ (Rect.block (s := S4096x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .f32 = 32 ∨ (Rect.block (s := S4096x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x4096.size a
  hwx1_0 : ∀ i : grid1.Coords, EltTy.bits .f32 = 32 ∨ (Rect.block (s := S4096x4096) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x4096.size a
  hwx1_1 : ∀ i : grid1.Coords, EltTy.bits .f32 = 32 ∨ (Rect.block (s := S4096x4096) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x4096.size a
  hwx1_3 : ∀ i : grid1.Coords, EltTy.bits .f32 = 32 ∨ (Rect.block (s := S4096x4096) S512x512.size (cc1_transform_3 i) (hinb1_3 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .i1⟩
  | .hbm, ⟨18, _⟩ => ⟨S4096x4096, .f32⟩
  | .hbm, ⟨19, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Kernel.Common.lean ====
import proofs.«139539_j81106162418172_1_alg».proof.Proof.Gen.Kernel.Launch
import proofs.«139539_j81106162418172_1_alg».proof.Proof.Gen.Kernel.Skeleton
import proofs.«139539_j81106162418172_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the two kernel bodies share

Every access of either body is a whole block at offset zero. -/

/-- The offsets of every access of the two bodies are zero. -/
theorem hz2 : (![0, 0] : Fin 2 → ℕ) = fun _ => 0 := funext fun a => by fin_cases a <;> rfl

/-- A list of stores whose last one (the head) fills the whole shape covers the shape. -/
theorem cover_head {S : Shape} {e : EltTy} {Val : EltTy → Type} (off : Fin S.rank → ℕ) (h : off = fun _ => 0) (inb : ∀ a, off a + S.size a ≤ S.size a)
    (w : S.Idx → Val e) (L : List (View.Piece Val S e)) :
    ∀ y, ∃ p ∈ ((⟨Rect.unit off S.size inb, w⟩ : View.Piece Val S e) :: L), y ∈ p.1.set := by
  subst h; intro y
  exact ⟨_, List.mem_cons_self, by show y ∈ (Rect.whole S).set; rw [Rect.set_whole]; exact Finset.mem_univ y⟩

end Cert.Kernel.Hand

end
-- ==== Proof.Kernel.Runs0.lean ====
import proofs.«139539_j81106162418172_1_alg».proof.Proof.Gen.Kernel.Launch
import proofs.«139539_j81106162418172_1_alg».proof.Proof.Gen.Kernel.Skeleton
import proofs.«139539_j81106162418172_1_alg».proof.Proof.Gen.Kernel.Points
import proofs.«139539_j81106162418172_1_alg».proof.Proof.Kernel.Common
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body, run on any whole memrefs

Under the first conditional (the reduction coordinate is 0) the accumulator is zeroed; then the two operand blocks are
loaded, multiplied, and added to the accumulator; under the second conditional (the reduction coordinate is 1, the
last) the output block is computed from the accumulator and the bias block. The reduction axis has two points, so a
point takes exactly one of the two conditionals. -/

/-- The first conditional, from the grid coordinates: the reduction coordinate is 0. -/
abbrev isFirst0 (i : grid0.Coords) : Prop := (Scalar.cmpi .ne (Scalar.extui (Scalar.cmpi .eq (BitVec.ofNat 32 (i 2).val) 0#32)) 0#32) = 1#1

set_option maxHeartbeats 1000000 in
/-- A point that opens a reduction (the reduction coordinate is 0, so the closing conditional is not taken): the
    accumulator, whatever it held, is zeroed and the point's product added; the two operand blocks are read and left
    as they were; the bias block and the output block are not touched. -/
theorem run0_first (c : Dev nD) (E : Set ℕ) (i : grid0.Coords) (h1 : isFirst0 i) (h2 : ¬ k0_cond2 i = 1#1)
    (arg3 : Memref sig .tc .vmem S512x2048 .f32) (harg3 : arg3.IsWhole) (arg4 : Memref sig .tc .vmem S512x2048 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (x w : Vec F S512x2048 .f32) (K : PUnit → sProp 𝕄) :
    iprop(owns (c : Thread nD τ) arg3 fullShare x ∗ owns (c : Thread nD τ) arg4 fullShare w ∗ (∃ s, owns (c : Thread nD τ) arg7 fullShare s)
        ∗ (iprop(owns (c : Thread nD τ) arg3 fullShare x ∗ owns (c : Thread nD τ) arg4 fullShare w
            ∗ owns (c : Thread nD τ) arg7 fullShare (k0_pay2 x w k0_pay1)) -∗ K ⟨⟩))
      ⊢ wp frame (wpE (defs₀ (F := F)) Variants.none c none) E (cc0__mm_bias_kernel i arg3 harg3 arg4 harg4 arg5 harg5 arg6 harg6 arg7 harg7) K := by
  simp only [cc0__mm_bias_kernel_eq_skeleton]; unfold cc0__mm_bias_kernel_skel
  unfold owns
  iintro ⟨⟨%f3, %hf3, H3⟩, ⟨%f4, %hf4, H4⟩, ⟨%s, %f7, -, H7⟩, Hk⟩
  obtain rfl := harg3.eq_unread hf3; obtain rfl := harg4.eq_unread hf4
  sl_exec (disch := first | exact h1 | exact h2)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  rw [View.read_writes_eq_canon _ _ _ (cover_head _ hz2 _ _ _)]
  sl_unfold_words
  rw [View.canon_cons_unit_zero (S := S512x512) hz2]
  simp only [View.readAt_eq_ld, harg3.read_unread, harg4.read_unread, View.ld_unit_zero (S := S512x2048) hz2,
    View.readCov_unit_zero (S := S512x512) _ hz2]

set_option maxHeartbeats 1000000 in
/-- A point that closes a reduction (the reduction coordinate is 1, so the opening conditional is not taken): the
    point's product is added to the accumulator `s` the point before left, and the output block is stored whole from
    the new accumulator and the bias block; the operand blocks and the bias block are read and left as they were. -/
theorem run0_last (c : Dev nD) (E : Set ℕ) (i : grid0.Coords) (h1 : ¬ isFirst0 i) (h2 : k0_cond2 i = 1#1)
    (arg3 : Memref sig .tc .vmem S512x2048 .f32) (harg3 : arg3.IsWhole) (arg4 : Memref sig .tc .vmem S512x2048 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (x w : Vec F S512x2048 .f32) (b : Vec F S1x512 .f32) (s : Vec F S512x512 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k0_pay3 (k0_pay2 x w s) b)
            ∗ owns (c : Thread nD τ) arg7 fullShare (k0_pay2 x w s)) -∗ K ⟨⟩))
      ⊢ wp frame (wpE (defs₀ (F := F)) Variants.none c none) E (cc0__mm_bias_kernel i arg3 harg3 arg4 harg4 arg5 harg5 arg6 harg6 arg7 harg7) K := by
  simp only [cc0__mm_bias_kernel_eq_skeleton]; unfold cc0__mm_bias_kernel_skel
  unfold owns
  iintro ⟨⟨%f3, %hf3, H3⟩, ⟨%f4, %hf4, H4⟩, ⟨%f5, %hf5, H5⟩, ⟨%d, %f6, -, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact h1 | exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (cover_head _ hz2 _ _ _), View.canon_cons_unit_zero (S := S512x512) hz2]
    simp only [View.readAt_eq_ld, harg3.read_unread, harg4.read_unread, harg5.read_unread, harg7.read_unread,
      View.ld_unit_zero (S := S512x2048) hz2, View.ld_unit_zero (S := S1x512) hz2, View.ld_unit_zero (S := S512x512) hz2,
      View.readCov_unit_zero (S := S512x512) _ hz2]
  iexists _; isplitr
  swap; · iexact H7
  ipureintro
  sl_unfold_words
  rw [View.read_writes_eq_canon _ _ _ (cover_head _ hz2 _ _ _), View.canon_cons_unit_zero (S := S512x512) hz2]
  simp only [View.readAt_eq_ld, harg3.read_unread, harg4.read_unread, harg5.read_unread, harg7.read_unread,
    View.ld_unit_zero (S := S512x2048) hz2, View.ld_unit_zero (S := S1x512) hz2, View.ld_unit_zero (S := S512x512) hz2,
    View.readCov_unit_zero (S := S512x512) _ hz2]

end Cert.Kernel.Hand

end
-- ==== Proof.Kernel.Rest0.lean ====
import proofs.«139539_j81106162418172_1_alg».proof.Proof.Gen.Kernel.Launch
import proofs.«139539_j81106162418172_1_alg».proof.Proof.Gen.Kernel.Skeleton
import proofs.«139539_j81106162418172_1_alg».proof.Proof.Gen.Kernel.Points
import proofs.«139539_j81106162418172_1_alg».proof.Proof.Kernel.Common
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the launch hands the first kernel region beside its windows

The core's scoped buffers that are no staging buffer of the first region: the region's own scratch accumulator, and the
second region's staging buffers and accumulator, which the first region's body never touches. -/

/-- The scratch accumulator as a memref. -/
abbrev scM0 : Memref sig .tc .vmem S512x512 .f32 := Memref.whole cc0_scratch0

/-- The core's other scoped buffers that are no staging buffer of this region (the second region's staging buffers and
    accumulator), each whole at some contents: the body never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the launch hands the region is the accumulator at some contents, the other scoped buffers and the generator
    register, -/
theorem PhiA0_in (c : Dev nD) :
    (Pipeline.ΦA spec0 c : sProp 𝕄) ⊢ iprop((∃ s, owns (c : Thread nD τ) scM0 fullShare s) ∗ others0 (F := F) c ∗ (∃ r, prngReg c r)) := by
  unfold Pipeline.ΦA others0; rw [scopedRest0_eq]; simp only [scM0, owns_whole]
  iintro ⟨⟨Hs, Hr⟩, Hg⟩
  isplitl [Hs]; · iexact Hs
  isplitl [Hr]; · iexact Hr
  iexact Hg
/-- and conversely. -/
theorem PhiA0_out (c : Dev nD) :
    iprop((∃ s, owns (c : Thread nD τ) scM0 fullShare s) ∗ others0 (F := F) c ∗ (∃ r, prngReg c r)) ⊢ (Pipeline.ΦA spec0 c : sProp 𝕄) := by
  unfold Pipeline.ΦA others0; rw [scopedRest0_eq]; simp only [scM0, owns_whole]
  iintro ⟨Hs, Hr, Hg⟩
  isplitl [Hs Hr]
  · isplitl [Hs]; · iexact Hs
    iexact Hr
  iexact Hg

end Cert.Kernel.Hand

end
-- ==== Proof.Kernel.Data0.lean ====
import proofs.«139539_j81106162418172_1_alg».proof.Proof.Gen.Kernel.Launch
import proofs.«139539_j81106162418172_1_alg».proof.Proof.Gen.Kernel.Skeleton
import proofs.«139539_j81106162418172_1_alg».proof.Proof.Gen.Kernel.Points
import proofs.«139539_j81106162418172_1_alg».proof.Proof.Kernel.Runs0
import proofs.«139539_j81106162418172_1_alg».proof.Proof.Kernel.Rest0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel region: its proof data and its body obligation

The grid is 8 × 8 × 2, the last axis the reduction's, so the points come in pairs: an even point `2n` opens the
reduction for an output block (the accumulator is zeroed and the first product added) and the odd point `2n + 1` closes
it (the second product added, the output block stored from the accumulator and the bias block, and written back).
Everything is stated at a PARAMETER `V`: the TensorCore's buffer contents when the region is entered. -/

variable (V : (c : Dev nD) → (b : Ref sig .tc) → Buf (Elt F) ((c : Thread nD τ).loc b))

/-! ## The schedule, decided over the grid -/

/-- The opening conditional is taken at the even points, -/
theorem hfirst0 : ∀ t : Fin cfg0.N, isFirst0 (grid0.coords t) ↔ t.val % 2 = 0 :=
  (by decide +kernel : ∀ t : Fin grid0.N, isFirst0 (grid0.coords t) ↔ t.val % 2 = 0)
/-- the closing one at the odd points. -/
theorem hlast0 : ∀ t : Fin cfg0.N, k0_cond2 (grid0.coords t) = 1#1 ↔ t.val % 2 = 1 :=
  (by decide +kernel : ∀ t : Fin grid0.N, k0_cond2 (grid0.coords t) = 1#1 ↔ t.val % 2 = 1)
/-- The output window is idle at the even points (the body stores nothing into it there), -/
theorem idle0_3 : ∀ t : Fin cfg0.N, t.val % 2 = 0 → cfg0.idle 3 (grid0.coords t) = true :=
  (by decide +kernel : ∀ t : Fin grid0.N, t.val % 2 = 0 → cfg0.idle 3 (grid0.coords t) = true)
/-- and live at the odd ones. -/
theorem live0_3 : ∀ t : Fin cfg0.N, t.val % 2 = 1 → cfg0.idle 3 (grid0.coords t) = false :=
  (by decide +kernel : ∀ t : Fin grid0.N, t.val % 2 = 1 → cfg0.idle 3 (grid0.coords t) = false)

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's block, the stored matrix's block and the bias block at a point, at their literal types. -/
abbrev xblk0 (c : Dev nD) (t : Fin cfg0.N) : Vec F S512x2048 .f32 := iblk0 V c 0 t
abbrev wblk0 (c : Dev nD) (t : Fin cfg0.N) : Vec F S512x2048 .f32 := iblk0 V c 1 t
abbrev bblk0 (c : Dev nD) (t : Fin cfg0.N) : Vec F S1x512 .f32 := iblk0 V c 2 t

/-- An input window's current staging buffer holds its block at every point, fetched there or not (the bias window is
    fetched at the even points only, and its block index does not move at the odd ones). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the accumulator and the output block hold -/

/-- The point before. -/
def prev0 (t : Fin cfg0.N) : Fin cfg0.N := ⟨t.val - 1, Nat.lt_of_le_of_lt (Nat.sub_le _ _) t.isLt⟩

/-- The accumulator after an opening point: zero plus the point's product. -/
def accA0 (c : Dev nD) (t : Fin cfg0.N) : Vec F S512x512 .f32 := k0_pay2 (xblk0 V c t) (wblk0 V c t) k0_pay1
/-- The accumulator after a closing point: what the opening point before it left, plus the point's product. -/
def accB0 (c : Dev nD) (t : Fin cfg0.N) : Vec F S512x512 .f32 := k0_pay2 (xblk0 V c t) (wblk0 V c t) (accA0 V c (prev0 t))
/-- The accumulator after the point at position `n`. -/
def acc0 (c : Dev nD) (n : ℕ) : Vec F S512x512 .f32 :=
  if h : n < cfg0.N then (if n % 2 = 0 then accA0 V c ⟨n, h⟩ else accB0 V c ⟨n, h⟩) else k0_pay1
/-- The output block a closing point stores: the closed accumulator plus the bias row down the rows. -/
def out0 (c : Dev nD) (t : Fin cfg0.N) : Vec F S512x512 .f32 := k0_pay3 (accB0 V c t) (bblk0 V c t)

theorem acc0_even (c : Dev nD) (t : Fin cfg0.N) (h : t.val % 2 = 0) : acc0 V c t.val = accA0 V c t := by
  unfold acc0; rw [dif_pos t.isLt, if_pos h]
theorem acc0_odd (c : Dev nD) (t : Fin cfg0.N) (h : t.val % 2 = 1) : acc0 V c t.val = accB0 V c t := by
  unfold acc0; rw [dif_pos t.isLt, if_neg (by omega)]
theorem acc0_prev (c : Dev nD) (t : Fin cfg0.N) (h : t.val % 2 = 1) : acc0 V c (t.val - 1) = accA0 V c (prev0 t) :=
  acc0_even V c (prev0 t) (by show (t.val - 1) % 2 = 0; omega)

/-! ## The region invariant: the accumulator between points -/

/-- The invariant before position `n`: before the first point what the launch hands the region; afterwards the
    accumulator at what the point before left in it, beside the other scoped buffers and the generator register. -/
def Phi0 (c : Dev nD) : ℕ → sProp 𝕄
  | 0 => Pipeline.ΦA spec0 c
  | n + 1 => iprop(owns (c : Thread nD τ) scM0 fullShare (acc0 V c n) ∗ others0 (F := F) c ∗ (∃ r, prngReg c r))

theorem Phi0_succ (c : Dev nD) (n : ℕ) :
    Phi0 V c (n + 1) = iprop(owns (c : Thread nD τ) scM0 fullShare (acc0 V c n) ∗ others0 (F := F) c ∗ (∃ r, prngReg c r)) := rfl
theorem Phi0_pos (c : Dev nD) (n : ℕ) (hn : n ≠ 0) :
    Phi0 V c n = iprop(owns (c : Thread nD τ) scM0 fullShare (acc0 V c (n - 1)) ∗ others0 (F := F) c ∗ (∃ r, prngReg c r)) := by
  cases n with
  | zero => exact absurd rfl hn
  | succ n => rfl
/-- At any position the invariant holds the accumulator at SOME contents. -/
theorem Phi0_forget (c : Dev nD) (n : ℕ) :
    Phi0 V c n ⊢ iprop((∃ s, owns (c : Thread nD τ) scM0 fullShare s) ∗ others0 (F := F) c ∗ (∃ r, prngReg c r)) := by
  cases n with
  | zero => exact PhiA0_in c
  | succ n =>
    rw [Phi0_succ]
    iintro ⟨Hx, Hr, Hg⟩
    isplitl [Hx]; · iexists _; iexact Hx
    isplitl [Hr]; · iexact Hr
    iexact Hg

/-! ## The proof data -/

/-- The proof data of the first pipeline on core `c`: the arrays as the region finds them; after the body each input's
    buffer at its block and the output's at the block a closing point stores (at an opening point the output window is idle
    and the field is not consulted); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem Phi0_castSucc (c : Dev nD) (t : Fin cfg0.N) : (dat0 V c).Φ t.castSucc = Phi0 V c t.val := rfl
theorem Phi0_atSucc (c : Dev nD) (t : Fin cfg0.N) : (dat0 V c).Φ t.succ = Phi0 V c (t.val + 1) := rfl

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 2000000 in
/-- The body at any point. At an even point the accumulator, at whatever the invariant holds it, is reset and takes the
    first product; the output window is handed back as found. At an odd point the accumulator holds what the even point
    before left; it takes the second product, and the output block is stored. The operand and bias blocks sit in their
    staging buffers at every point; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [Phi0_castSucc, Phi0_atSucc, Phi0_succ]
  rw [show (dat0 V c).leavesExact 0 t = owns (c : Thread nD τ) (st0_0 t) fullShare ((dat0 V c).after 0 t) from rfl, after0_0,
    show (dat0 V c).leavesExact 1 t = owns (c : Thread nD τ) (st0_1 t) fullShare ((dat0 V c).after 1 t) from rfl, after0_1,
    show (dat0 V c).leavesExact 2 t = owns (c : Thread nD τ) (st0_2 t) fullShare ((dat0 V c).after 2 t) from rfl, after0_2]
  by_cases he : t.val % 2 = 0
  · have ho : ¬ t.val % 2 = 1 := by omega
    rw [Dat.leavesExact_idle (dat0 V c) 3 t (idle0_3 t he) (Bool.eq_false_iff.mpr fun h => ho ((flush0_3 t).mp h))]
    rw [acc0_even V c t he]
    iintro ⟨HΦ, Ho, ⟨%dx, Hx⟩, ⟨%dw, Hw⟩, ⟨%db, Hb⟩, ⟨%dy, Hy⟩⟩
    ihave HΦ' := (Phi0_forget V c t.val) $$ HΦ
    icases HΦ' with ⟨HS, Hr, Hg⟩
    iapply (run0_first c Set.univ (grid0.coords t) ((hfirst0 t).mpr he) (fun h => ho ((hlast0 t).mp h)) _ _ _ _ _ _ _ _ _ _ (xblk0 V c t) (wblk0 V c t) _)
    isplitl [Hx]; · iexact Hx
    isplitl [Hw]; · iexact Hw
    isplitl [HS]; · iexact HS
    iintro ⟨Hx, Hw, HS⟩
    isplitl [HS Hr Hg]
    · isplitl [HS]; · iexact HS
      isplitl [Hr]; · iexact Hr
      iexact Hg
    isplitl [Ho]; · iexact Ho
    isplitl [Hx]; · iexact Hx
    isplitl [Hw]; · iexact Hw
    isplitl [Hb]; · iexact Hb
    iexists _; iexact Hy
  · have ho : t.val % 2 = 1 := by omega
    have hz : t.val ≠ 0 := by omega
    rw [show (dat0 V c).leavesExact 3 t = owns (c : Thread nD τ) (st0_3 t) fullShare ((dat0 V c).after 3 t) from by
      unfold Dat.leavesExact; rw [live0_3 t ho], after0_3]
    rw [acc0_odd V c t ho, Phi0_pos V c _ hz, acc0_prev V c t ho]
    iintro ⟨⟨HS, Hr, Hg⟩, Ho, ⟨%dx, Hx⟩, ⟨%dw, Hw⟩, ⟨%db, Hb⟩, ⟨%dy, Hy⟩⟩
    iapply (run0_last c Set.univ (grid0.coords t) (fun h => he ((hfirst0 t).mp h)) ((hlast0 t).mpr ho) _ _ _ _ _ _ _ _ _ _ (xblk0 V c t) (wblk0 V c t) (bblk0 V c t) (accA0 V c (prev0 t)) _)
    isplitl [Hx]; · iexact Hx
    isplitl [Hw]; · iexact Hw
    isplitl [Hb]; · iexact Hb
    isplitl [Hy]; · iexists _; iexact Hy
    isplitl [HS]; · iexact HS
    iintro ⟨Hx, Hw, Hb, Hy, HS⟩
    isplitl [HS Hr Hg]
    · isplitl [HS]; · iexact HS
      isplitl [Hr]; · iexact Hr
      iexact Hg
    isplitl [Ho]; · iexact Ho
    isplitl [Hx]; · iexact Hx
    isplitl [Hw]; · iexact Hw
    isplitl [Hb]; · iexact Hb
    iexact Hy

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := .rfl

/-- and after the last point the invariant gives it back: the accumulator's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val from rfl]
  exact (Phi0_forget V c _).trans (PhiA0_out c)

end Cert.Kernel.Hand

end
-- ==== Proof.Kernel.Runs1.lean ====
import proofs.«139539_j81106162418172_1_alg».proof.Proof.Gen.Kernel.Launch
import proofs.«139539_j81106162418172_1_alg».proof.Proof.Gen.Kernel.Skeleton
import proofs.«139539_j81106162418172_1_alg».proof.Proof.Gen.Kernel.Points
import proofs.«139539_j81106162418172_1_alg».proof.Proof.Kernel.Common
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body, run on any whole memrefs

Under the first conditional (the reduction coordinate is 0) the accumulator is zeroed; then the two operand blocks are
loaded, multiplied, and added to the accumulator; under the second conditional (the reduction coordinate is 1, the
last) the output block is computed from the accumulator and the bias block. The reduction axis has two points, so a
point takes exactly one of the two conditionals. -/

/-- The first conditional, from the grid coordinates: the reduction coordinate is 0. -/
abbrev isFirst1 (i : grid1.Coords) : Prop := (Scalar.cmpi .ne (Scalar.extui (Scalar.cmpi .eq (BitVec.ofNat 32 (i 2).val) 0#32)) 0#32) = 1#1

set_option maxHeartbeats 1000000 in
/-- A point that opens a reduction (the reduction coordinate is 0, so the closing conditional is not taken): the
    accumulator, whatever it held, is zeroed and the point's product added; the two operand blocks are read and left
    as they were; the bias block and the output block are not touched. -/
theorem run1_first (c : Dev nD) (E : Set ℕ) (i : grid1.Coords) (h1 : isFirst1 i) (h2 : ¬ k1_cond2 i = 1#1)
    (arg3 : Memref sig .tc .vmem S512x2048 .f32) (harg3 : arg3.IsWhole) (arg4 : Memref sig .tc .vmem S512x2048 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (x w : Vec F S512x2048 .f32) (K : PUnit → sProp 𝕄) :
    iprop(owns (c : Thread nD τ) arg3 fullShare x ∗ owns (c : Thread nD τ) arg4 fullShare w ∗ (∃ s, owns (c : Thread nD τ) arg7 fullShare s)
        ∗ (iprop(owns (c : Thread nD τ) arg3 fullShare x ∗ owns (c : Thread nD τ) arg4 fullShare w
            ∗ owns (c : Thread nD τ) arg7 fullShare (k1_pay2 x w k1_pay1)) -∗ K ⟨⟩))
      ⊢ wp frame (wpE (defs₀ (F := F)) Variants.none c none) E (cc1__mm_cos_kernel i arg3 harg3 arg4 harg4 arg5 harg5 arg6 harg6 arg7 harg7) K := by
  simp only [cc1__mm_cos_kernel_eq_skeleton]; unfold cc1__mm_cos_kernel_skel
  unfold owns
  iintro ⟨⟨%f3, %hf3, H3⟩, ⟨%f4, %hf4, H4⟩, ⟨%s, %f7, -, H7⟩, Hk⟩
  obtain rfl := harg3.eq_unread hf3; obtain rfl := harg4.eq_unread hf4
  sl_exec (disch := first | exact h1 | exact h2)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  rw [View.read_writes_eq_canon _ _ _ (cover_head _ hz2 _ _ _)]
  sl_unfold_words
  rw [View.canon_cons_unit_zero (S := S512x512) hz2]
  simp only [View.readAt_eq_ld, harg3.read_unread, harg4.read_unread, View.ld_unit_zero (S := S512x2048) hz2,
    View.readCov_unit_zero (S := S512x512) _ hz2]

set_option maxHeartbeats 1000000 in
/-- A point that closes a reduction (the reduction coordinate is 1, so the opening conditional is not taken): the
    point's product is added to the accumulator `s` the point before left, and the output block is stored whole from
    the new accumulator and the bias block; the operand blocks and the bias block are read and left as they were. -/
theorem run1_last (c : Dev nD) (E : Set ℕ) (i : grid1.Coords) (h1 : ¬ isFirst1 i) (h2 : k1_cond2 i = 1#1)
    (arg3 : Memref sig .tc .vmem S512x2048 .f32) (harg3 : arg3.IsWhole) (arg4 : Memref sig .tc .vmem S512x2048 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (x w : Vec F S512x2048 .f32) (b : Vec F S1x512 .f32) (s : Vec F S512x512 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 x w s) b)
            ∗ owns (c : Thread nD τ) arg7 fullShare (k1_pay2 x w s)) -∗ K ⟨⟩))
      ⊢ wp frame (wpE (defs₀ (F := F)) Variants.none c none) E (cc1__mm_cos_kernel i arg3 harg3 arg4 harg4 arg5 harg5 arg6 harg6 arg7 harg7) K := by
  simp only [cc1__mm_cos_kernel_eq_skeleton]; unfold cc1__mm_cos_kernel_skel
  unfold owns
  iintro ⟨⟨%f3, %hf3, H3⟩, ⟨%f4, %hf4, H4⟩, ⟨%f5, %hf5, H5⟩, ⟨%d, %f6, -, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact h1 | exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (cover_head _ hz2 _ _ _), View.canon_cons_unit_zero (S := S512x512) hz2]
    simp only [View.readAt_eq_ld, harg3.read_unread, harg4.read_unread, harg5.read_unread, harg7.read_unread,
      View.ld_unit_zero (S := S512x2048) hz2, View.ld_unit_zero (S := S1x512) hz2, View.ld_unit_zero (S := S512x512) hz2,
      View.readCov_unit_zero (S := S512x512) _ hz2]
  iexists _; isplitr
  swap; · iexact H7
  ipureintro
  sl_unfold_words
  rw [View.read_writes_eq_canon _ _ _ (cover_head _ hz2 _ _ _), View.canon_cons_unit_zero (S := S512x512) hz2]
  simp only [View.readAt_eq_ld, harg3.read_unread, harg4.read_unread, harg5.read_unread, harg7.read_unread,
    View.ld_unit_zero (S := S512x2048) hz2, View.ld_unit_zero (S := S1x512) hz2, View.ld_unit_zero (S := S512x512) hz2,
    View.readCov_unit_zero (S := S512x512) _ hz2]

end Cert.Kernel.Hand

end
-- ==== Proof.Kernel.Rest1.lean ====
import proofs.«139539_j81106162418172_1_alg».proof.Proof.Gen.Kernel.Launch
import proofs.«139539_j81106162418172_1_alg».proof.Proof.Gen.Kernel.Skeleton
import proofs.«139539_j81106162418172_1_alg».proof.Proof.Gen.Kernel.Points
import proofs.«139539_j81106162418172_1_alg».proof.Proof.Kernel.Common
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the launch hands the second kernel region beside its windows

The core's scoped buffers that are no staging buffer of the second region: the region's own scratch accumulator, and the
first region's staging buffers and accumulator, which the second region's body never touches. -/

/-- The scratch accumulator as a memref. -/
abbrev scM1 : Memref sig .tc .vmem S512x512 .f32 := Memref.whole cc1_scratch0

/-- The core's other scoped buffers that are no staging buffer of this region (the first region's staging buffers and
    accumulator), each whole at some contents: the body never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- What the launch hands the region is the accumulator at some contents, the other scoped buffers and the generator
    register, -/
theorem PhiA1_in (c : Dev nD) :
    (Pipeline.ΦA spec1 c : sProp 𝕄) ⊢ iprop((∃ s, owns (c : Thread nD τ) scM1 fullShare s) ∗ others1 (F := F) c ∗ (∃ r, prngReg c r)) := by
  unfold Pipeline.ΦA others1; rw [scopedRest1_eq]; simp only [scM1, owns_whole]
  iintro ⟨⟨Ha, Hb, Hc, Hd, He, Hf, Hg', Hh, Hi, Hs⟩, Hg⟩
  isplitl [Hs]; · iexact Hs
  isplitr [Hg]
  · isplitl [Ha]; · iexact Ha
    isplitl [Hb]; · iexact Hb
    isplitl [Hc]; · iexact Hc
    isplitl [Hd]; · iexact Hd
    isplitl [He]; · iexact He
    isplitl [Hf]; · iexact Hf
    isplitl [Hg']; · iexact Hg'
    isplitl [Hh]; · iexact Hh
    iexact Hi
  iexact Hg
/-- and conversely. -/
theorem PhiA1_out (c : Dev nD) :
    iprop((∃ s, owns (c : Thread nD τ) scM1 fullShare s) ∗ others1 (F := F) c ∗ (∃ r, prngReg c r)) ⊢ (Pipeline.ΦA spec1 c : sProp 𝕄) := by
  unfold Pipeline.ΦA others1; rw [scopedRest1_eq]; simp only [scM1, owns_whole]
  iintro ⟨Hs, ⟨Ha, Hb, Hc, Hd, He, Hf, Hg', Hh, Hi⟩, Hg⟩
  isplitr [Hg]
  · isplitl [Ha]; · iexact Ha
    isplitl [Hb]; · iexact Hb
    isplitl [Hc]; · iexact Hc
    isplitl [Hd]; · iexact Hd
    isplitl [He]; · iexact He
    isplitl [Hf]; · iexact Hf
    isplitl [Hg']; · iexact Hg'
    isplitl [Hh]; · iexact Hh
    isplitl [Hi]; · iexact Hi
    iexact Hs
  iexact Hg

end Cert.Kernel.Hand

end
-- ==== Proof.Kernel.Data1.lean ====
import proofs.«139539_j81106162418172_1_alg».proof.Proof.Gen.Kernel.Launch
import proofs.«139539_j81106162418172_1_alg».proof.Proof.Gen.Kernel.Skeleton
import proofs.«139539_j81106162418172_1_alg».proof.Proof.Gen.Kernel.Points
import proofs.«139539_j81106162418172_1_alg».proof.Proof.Kernel.Runs1
import proofs.«139539_j81106162418172_1_alg».proof.Proof.Kernel.Rest1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region: its proof data and its body obligation

The grid is 8 × 8 × 2, the last axis the reduction's, so the points come in pairs: an even point `2n` opens the
reduction for an output block (the accumulator is zeroed and the first product added) and the odd point `2n + 1` closes
it (the second product added, the output block stored from the accumulator and the bias block, and written back).
Everything is stated at a PARAMETER `V`: the TensorCore's buffer contents when the region is entered. -/

variable (V : (c : Dev nD) → (b : Ref sig .tc) → Buf (Elt F) ((c : Thread nD τ).loc b))

/-! ## The schedule, decided over the grid -/

/-- The opening conditional is taken at the even points, -/
theorem hfirst1 : ∀ t : Fin cfg1.N, isFirst1 (grid1.coords t) ↔ t.val % 2 = 0 :=
  (by decide +kernel : ∀ t : Fin grid1.N, isFirst1 (grid1.coords t) ↔ t.val % 2 = 0)
/-- the closing one at the odd points. -/
theorem hlast1 : ∀ t : Fin cfg1.N, k1_cond2 (grid1.coords t) = 1#1 ↔ t.val % 2 = 1 :=
  (by decide +kernel : ∀ t : Fin grid1.N, k1_cond2 (grid1.coords t) = 1#1 ↔ t.val % 2 = 1)
/-- The output window is idle at the even points (the body stores nothing into it there), -/
theorem idle1_3 : ∀ t : Fin cfg1.N, t.val % 2 = 0 → cfg1.idle 3 (grid1.coords t) = true :=
  (by decide +kernel : ∀ t : Fin grid1.N, t.val % 2 = 0 → cfg1.idle 3 (grid1.coords t) = true)
/-- and live at the odd ones. -/
theorem live1_3 : ∀ t : Fin cfg1.N, t.val % 2 = 1 → cfg1.idle 3 (grid1.coords t) = false :=
  (by decide +kernel : ∀ t : Fin grid1.N, t.val % 2 = 1 → cfg1.idle 3 (grid1.coords t) = false)

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's block, the stored matrix's block and the bias block at a point, at their literal types. -/
abbrev xblk1 (c : Dev nD) (t : Fin cfg1.N) : Vec F S512x2048 .f32 := iblk1 V c 0 t
abbrev wblk1 (c : Dev nD) (t : Fin cfg1.N) : Vec F S512x2048 .f32 := iblk1 V c 1 t
abbrev bblk1 (c : Dev nD) (t : Fin cfg1.N) : Vec F S1x512 .f32 := iblk1 V c 2 t

/-- An input window's current staging buffer holds its block at every point, fetched there or not (the bias window is
    fetched at the even points only, and its block index does not move at the odd ones). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the accumulator and the output block hold -/

/-- The point before. -/
def prev1 (t : Fin cfg1.N) : Fin cfg1.N := ⟨t.val - 1, Nat.lt_of_le_of_lt (Nat.sub_le _ _) t.isLt⟩

/-- The accumulator after an opening point: zero plus the point's product. -/
def accA1 (c : Dev nD) (t : Fin cfg1.N) : Vec F S512x512 .f32 := k1_pay2 (xblk1 V c t) (wblk1 V c t) k1_pay1
/-- The accumulator after a closing point: what the opening point before it left, plus the point's product. -/
def accB1 (c : Dev nD) (t : Fin cfg1.N) : Vec F S512x512 .f32 := k1_pay2 (xblk1 V c t) (wblk1 V c t) (accA1 V c (prev1 t))
/-- The accumulator after the point at position `n`. -/
def acc1 (c : Dev nD) (n : ℕ) : Vec F S512x512 .f32 :=
  if h : n < cfg1.N then (if n % 2 = 0 then accA1 V c ⟨n, h⟩ else accB1 V c ⟨n, h⟩) else k1_pay1
/-- The output block a closing point stores: the closed accumulator plus the bias row down the rows. -/
def out1 (c : Dev nD) (t : Fin cfg1.N) : Vec F S512x512 .f32 := k1_pay3 (accB1 V c t) (bblk1 V c t)

theorem acc1_even (c : Dev nD) (t : Fin cfg1.N) (h : t.val % 2 = 0) : acc1 V c t.val = accA1 V c t := by
  unfold acc1; rw [dif_pos t.isLt, if_pos h]
theorem acc1_odd (c : Dev nD) (t : Fin cfg1.N) (h : t.val % 2 = 1) : acc1 V c t.val = accB1 V c t := by
  unfold acc1; rw [dif_pos t.isLt, if_neg (by omega)]
theorem acc1_prev (c : Dev nD) (t : Fin cfg1.N) (h : t.val % 2 = 1) : acc1 V c (t.val - 1) = accA1 V c (prev1 t) :=
  acc1_even V c (prev1 t) (by show (t.val - 1) % 2 = 0; omega)

/-! ## The region invariant: the accumulator between points -/

/-- The invariant before position `n`: before the first point what the launch hands the region; afterwards the
    accumulator at what the point before left in it, beside the other scoped buffers and the generator register. -/
def Phi1 (c : Dev nD) : ℕ → sProp 𝕄
  | 0 => Pipeline.ΦA spec1 c
  | n + 1 => iprop(owns (c : Thread nD τ) scM1 fullShare (acc1 V c n) ∗ others1 (F := F) c ∗ (∃ r, prngReg c r))

theorem Phi1_succ (c : Dev nD) (n : ℕ) :
    Phi1 V c (n + 1) = iprop(owns (c : Thread nD τ) scM1 fullShare (acc1 V c n) ∗ others1 (F := F) c ∗ (∃ r, prngReg c r)) := rfl
theorem Phi1_pos (c : Dev nD) (n : ℕ) (hn : n ≠ 0) :
    Phi1 V c n = iprop(owns (c : Thread nD τ) scM1 fullShare (acc1 V c (n - 1)) ∗ others1 (F := F) c ∗ (∃ r, prngReg c r)) := by
  cases n with
  | zero => exact absurd rfl hn
  | succ n => rfl
/-- At any position the invariant holds the accumulator at SOME contents. -/
theorem Phi1_forget (c : Dev nD) (n : ℕ) :
    Phi1 V c n ⊢ iprop((∃ s, owns (c : Thread nD τ) scM1 fullShare s) ∗ others1 (F := F) c ∗ (∃ r, prngReg c r)) := by
  cases n with
  | zero => exact PhiA1_in c
  | succ n =>
    rw [Phi1_succ]
    iintro ⟨Hx, Hr, Hg⟩
    isplitl [Hx]; · iexists _; iexact Hx
    isplitl [Hr]; · iexact Hr
    iexact Hg

/-! ## The proof data -/

/-- The proof data of the second pipeline on core `c`: the arrays as the region finds them; after the body each input's
    buffer at its block and the output's at the block a closing point stores (at an opening point the output window is idle
    and the field is not consulted); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem Phi1_castSucc (c : Dev nD) (t : Fin cfg1.N) : (dat1 V c).Φ t.castSucc = Phi1 V c t.val := rfl
theorem Phi1_atSucc (c : Dev nD) (t : Fin cfg1.N) : (dat1 V c).Φ t.succ = Phi1 V c (t.val + 1) := rfl

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 2000000 in
/-- The body at any point. At an even point the accumulator, at whatever the invariant holds it, is reset and takes the
    first product; the output window is handed back as found. At an odd point the accumulator holds what the even point
    before left; it takes the second product, and the output block is stored. The operand and bias blocks sit in their
    staging buffers at every point; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_castSucc, Phi1_atSucc, Phi1_succ]
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2]
  by_cases he : t.val % 2 = 0
  · have ho : ¬ t.val % 2 = 1 := by omega
    rw [Dat.leavesExact_idle (dat1 V c) 3 t (idle1_3 t he) (Bool.eq_false_iff.mpr fun h => ho ((flush1_3 t).mp h))]
    rw [acc1_even V c t he]
    iintro ⟨HΦ, Ho, ⟨%dx, Hx⟩, ⟨%dw, Hw⟩, ⟨%db, Hb⟩, ⟨%dy, Hy⟩⟩
    ihave HΦ' := (Phi1_forget V c t.val) $$ HΦ
    icases HΦ' with ⟨HS, Hr, Hg⟩
    iapply (run1_first c Set.univ (grid1.coords t) ((hfirst1 t).mpr he) (fun h => ho ((hlast1 t).mp h)) _ _ _ _ _ _ _ _ _ _ (xblk1 V c t) (wblk1 V c t) _)
    isplitl [Hx]; · iexact Hx
    isplitl [Hw]; · iexact Hw
    isplitl [HS]; · iexact HS
    iintro ⟨Hx, Hw, HS⟩
    isplitl [HS Hr Hg]
    · isplitl [HS]; · iexact HS
      isplitl [Hr]; · iexact Hr
      iexact Hg
    isplitl [Ho]; · iexact Ho
    isplitl [Hx]; · iexact Hx
    isplitl [Hw]; · iexact Hw
    isplitl [Hb]; · iexact Hb
    iexists _; iexact Hy
  · have ho : t.val % 2 = 1 := by omega
    have hz : t.val ≠ 0 := by omega
    rw [show (dat1 V c).leavesExact 3 t = owns (c : Thread nD τ) (st1_3 t) fullShare ((dat1 V c).after 3 t) from by
      unfold Dat.leavesExact; rw [live1_3 t ho], after1_3]
    rw [acc1_odd V c t ho, Phi1_pos V c _ hz, acc1_prev V c t ho]
    iintro ⟨⟨HS, Hr, Hg⟩, Ho, ⟨%dx, Hx⟩, ⟨%dw, Hw⟩, ⟨%db, Hb⟩, ⟨%dy, Hy⟩⟩
    iapply (run1_last c Set.univ (grid1.coords t) (fun h => he ((hfirst1 t).mp h)) ((hlast1 t).mpr ho) _ _ _ _ _ _ _ _ _ _ (xblk1 V c t) (wblk1 V c t) (bblk1 V c t) (accA1 V c (prev1 t)) _)
    isplitl [Hx]; · iexact Hx
    isplitl [Hw]; · iexact Hw
    isplitl [Hb]; · iexact Hb
    isplitl [Hy]; · iexists _; iexact Hy
    isplitl [HS]; · iexact HS
    iintro ⟨Hx, Hw, Hb, Hy, HS⟩
    isplitl [HS Hr Hg]
    · isplitl [HS]; · iexact HS
      isplitl [Hr]; · iexact Hr
      iexact Hg
    isplitl [Ho]; · iexact Ho
    isplitl [Hx]; · iexact Hx
    isplitl [Hw]; · iexact Hw
    isplitl [Hb]; · iexact Hb
    iexact Hy

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := .rfl

/-- and after the last point the invariant gives it back: the accumulator's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val from rfl]
  exact (Phi1_forget V c _).trans (PhiA1_out c)

end Cert.Kernel.Hand

end
-- ==== Proof.Kernel.Launch.lean ====
import proofs.«139539_j81106162418172_1_alg».proof.Proof.Gen.Kernel.Launch
import proofs.«139539_j81106162418172_1_alg».proof.Proof.Gen.Kernel.Skeleton
import proofs.«139539_j81106162418172_1_alg».proof.Proof.Gen.Kernel.Points
import proofs.«139539_j81106162418172_1_alg».proof.Proof.Kernel.Data0
import proofs.«139539_j81106162418172_1_alg».proof.Proof.Kernel.Data1
import proofs.«139539_j81106162418172_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program

@main is a host reshape (the first bias vector as a one-row matrix), the first kernel region, a second host reshape
(the second bias vector), the second kernel region. Between two of these items every unscoped buffer of the core is
held whole at a named valuation: the launch memory, then the first reshape's result written, then the first region's
arrays at what its write-backs leave, then the second reshape's result, then the second region's arrays. The run ends
with every unscoped buffer at the last valuation; the arguments are read back through the valuations to the launch
memory, and the result array is the second region's output array after its last write-back. -/

variable (m : (ℓ : Loc nD τ sig) → Buf (Elt F) ℓ) (ρ : Dev nD → PrngReg)

/-- Core `c`'s buffers at launch. -/
abbrev W0 : Dev nD → Valuation τ sig (Elt F) := fun c b => m (c, b)
/-- After the first reshape (the first region's entry). -/
abbrev W1 : Dev nD → Valuation τ sig (Elt F) := fun c => StableHlo.after hostOps0 (W0 m c)
/-- The same read at the TensorCore's references (what the first region's proof data take). -/
abbrev V1 : (c : Dev nD) → (b : Ref sig .tc) → Buf (Elt F) ((c : Thread nD τ).loc b) := fun c b => W1 m c b

/-- At the first region's exit: its arrays at what the pipeline leaves (the inputs as entered, the output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second reshape (the second region's entry). -/
abbrev W3 : Dev nD → Valuation τ sig (Elt F) := fun c => StableHlo.after hostOps1 (W2 m c)
/-- The same read at the TensorCore's references (what the second region's proof data take). -/
abbrev V3 : (c : Dev nD) → (b : Ref sig .tc) → Buf (Elt F) ((c : Thread nD τ).loc b) := fun c b => W3 m c b

/-- At the second region's exit: its arrays at what the pipeline leaves (the inputs as entered, the output's write-backs
    folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## A buffer no item writes keeps its contents -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

/-- The first region's two operand arrays are arguments: it reads them through input windows, which are never written. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := W1_of m c main_arg1 (by decide)
    _ = m ((c : Thread nD τ).loc main_arg1) := rfl
/-- The bias vectors are read by the host reshapes only. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
/-- The second stored matrix is the second region's input window 1. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := (W4_arr m c 1).trans (((dat1 (V3 m) c).arrAt_in 1 rfl _).trans (A_eq1 (V3 m) c 1))
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl

/-! ## The proof data family and the thread state -/

/-- The prefetched tables' admissible contents: no pipeline has a table. -/
abbrev admT : (p : Fin 2) → (pcfgs (F := F) p).Adm := fun p => (cfgs p).toPCfg_adm
/-- Every pipeline's proof data, each at its region's entry contents (a literal match on the pipeline's number). -/
def pdats : (p : Fin 2) → (c : Dev nD) → Dat τ (Elt F) Unit ℕ (UR sig nD τ) ℕ (Pipeline.pin (pcfgs (F := F)) admT p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last valuation, the generator register at
    some state. -/
abbrev Tₙ (c : Dev nD) : sProp 𝕄 := iprop(StableHlo.held (c : Thread nD τ) (Pipeline.ucRefs τ sig) (W4 m c) ∗ ∃ r, prngReg c r)

/-! ## The regions as segments -/

-- a library lemma stated over the pinned configuration unifies with the printed one only when unification may unfold
-- plain definitions in a metavariable's type
set_option backward.isDefEq.respectTransparency.types false in
/-- The first kernel region over the thread state: entered with every unscoped buffer at `W1`, left with them at
    `W2`. Its windows' arrays are split out of the unscoped buffers and put back at what the write-backs leave; the
    generator register goes into the region invariant and comes back; the accumulator is handed over at some contents
    and its final contents are forgotten; nothing is owed; the kernel has no semaphore of its own. -/
def reg0 : Pipeline.RegionSeg (pcfgs (F := F)) admT (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) admT (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second kernel region over the thread state: entered with every unscoped buffer at `W3`, left with them at
    `W4`. Its windows' arrays are split out of the unscoped buffers and put back at what the write-backs leave; the
    generator register goes into the region invariant and comes back; the accumulator is handed over at some contents
    and its final contents are forgotten; nothing is owed; the kernel has no semaphore of its own. -/
def reg1 : Pipeline.RegionSeg (pcfgs (F := F)) admT (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) admT (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four items in order. -/
abbrev segsT : List (Pipeline.Seg (pcfgs (F := F)) admT (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segsT m) := (main_chain c).trans (by chain_rfl)

-- the launch theorem's implicit arguments are found by unifying its conclusion with this one, which takes unfolding
-- plain definitions in a metavariable's type
set_option backward.isDefEq.respectTransparency.types false in
/-- THE RUN. From any memory with zero counters every weakly fair execution of @main on the TensorCores terminates,
    nothing faulting, and every final state has every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) admT (pdats m) () cellOf_inj emb₁ defs₀ 𝒱₀ L lv m ρ main (segsT m)
    (fun c Q => by rw [main_run m c])
    (by simp only [segsT, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

/-- The result array ends at what the second region's write-backs leave in it. -/
theorem result_at (c : Dev nD) : W4 m c (Proc.devRef .tc main_v3) = (dat1 (V3 m) c).arrAt 3 cfg1.N := W4_arr m c 3

/-- The second region finds in its left operand's array what the first region's write-backs left. -/
theorem V3_main_v1 (c : Dev nD) : V3 m c main_v1 = (dat0 (V1 m) c).arrAt 3 cfg0.N :=
  (W3_of m c main_v1 (by decide)).trans (W2_arr m c 3)
/-- It finds the second stored matrix as launched. -/
theorem V3_main_arg3 (c : Dev nD) : V3 m c main_arg3 = m ((c : Thread nD τ).loc main_arg3) :=
  (W3_of m c main_arg3 (by decide)).trans ((W2_of_ne m c main_arg3 (by decide)).trans (W1_of m c main_arg3 (by decide)))
/-- The first region finds its operand arrays as launched. -/
theorem V1_main_arg0 (c : Dev nD) : V1 m c main_arg0 = m ((c : Thread nD τ).loc main_arg0) := W1_of m c main_arg0 (by decide)
theorem V1_main_arg1 (c : Dev nD) : V1 m c main_arg1 = m ((c : Thread nD τ).loc main_arg1) := W1_of m c main_arg1 (by decide)

end Cert.Kernel.Hand

end
-- ==== Proof.KernelIdeal.Common.lean ====
import proofs.«139539_j81106162418172_1_alg».proof.Proof.Gen.KernelIdeal.Launch
import proofs.«139539_j81106162418172_1_alg».proof.Proof.Gen.KernelIdeal.Skeleton
import proofs.«139539_j81106162418172_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the two kernel bodies share

Every access of either body is a whole block at offset zero. -/

/-- The offsets of every access of the two bodies are zero. -/
theorem hz2 : (![0, 0] : Fin 2 → ℕ) = fun _ => 0 := funext fun a => by fin_cases a <;> rfl

/-- A list of stores whose last one (the head) fills the whole shape covers the shape. -/
theorem cover_head {S : Shape} {e : EltTy} {Val : EltTy → Type} (off : Fin S.rank → ℕ) (h : off = fun _ => 0) (inb : ∀ a, off a + S.size a ≤ S.size a)
    (w : S.Idx → Val e) (L : List (View.Piece Val S e)) :
    ∀ y, ∃ p ∈ ((⟨Rect.unit off S.size inb, w⟩ : View.Piece Val S e) :: L), y ∈ p.1.set := by
  subst h; intro y
  exact ⟨_, List.mem_cons_self, by show y ∈ (Rect.whole S).set; rw [Rect.set_whole]; exact Finset.mem_univ y⟩

end Cert.KernelIdeal.Hand

end
-- ==== Proof.KernelIdeal.Runs0.lean ====
import proofs.«139539_j81106162418172_1_alg».proof.Proof.Gen.KernelIdeal.Launch
import proofs.«139539_j81106162418172_1_alg».proof.Proof.Gen.KernelIdeal.Skeleton
import proofs.«139539_j81106162418172_1_alg».proof.Proof.Gen.KernelIdeal.Points
import proofs.«139539_j81106162418172_1_alg».proof.Proof.KernelIdeal.Common
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body, run on any whole memrefs

Under the first conditional (the reduction coordinate is 0) the accumulator is zeroed; then the two operand blocks are
loaded, multiplied, and added to the accumulator; under the second conditional (the reduction coordinate is 1, the
last) the output block is computed from the accumulator and the bias block. The reduction axis has two points, so a
point takes exactly one of the two conditionals. -/

/-- The first conditional, from the grid coordinates: the reduction coordinate is 0. -/
abbrev isFirst0 (i : grid0.Coords) : Prop := (Scalar.cmpi .ne (Scalar.extui (Scalar.cmpi .eq (BitVec.ofNat 32 (i 2).val) 0#32)) 0#32) = 1#1

set_option maxHeartbeats 1000000 in
/-- A point that opens a reduction (the reduction coordinate is 0, so the closing conditional is not taken): the
    accumulator, whatever it held, is zeroed and the point's product added; the two operand blocks are read and left
    as they were; the bias block and the output block are not touched. -/
theorem run0_first (c : Dev nD) (E : Set ℕ) (i : grid0.Coords) (h1 : isFirst0 i) (h2 : ¬ k0_cond2 i = 1#1)
    (arg3 : Memref sig .tc .vmem S512x2048 .f32) (harg3 : arg3.IsWhole) (arg4 : Memref sig .tc .vmem S512x2048 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (x w : Vec F S512x2048 .f32) (K : PUnit → sProp 𝕄) :
    iprop(owns (c : Thread nD τ) arg3 fullShare x ∗ owns (c : Thread nD τ) arg4 fullShare w ∗ (∃ s, owns (c : Thread nD τ) arg7 fullShare s)
        ∗ (iprop(owns (c : Thread nD τ) arg3 fullShare x ∗ owns (c : Thread nD τ) arg4 fullShare w
            ∗ owns (c : Thread nD τ) arg7 fullShare (k0_pay2 x w k0_pay1)) -∗ K ⟨⟩))
      ⊢ wp frame (wpE (defs₀ (F := F)) Variants.none c none) E (cc0__mm_bias_kernel i arg3 harg3 arg4 harg4 arg5 harg5 arg6 harg6 arg7 harg7) K := by
  simp only [cc0__mm_bias_kernel_eq_skeleton]; unfold cc0__mm_bias_kernel_skel
  unfold owns
  iintro ⟨⟨%f3, %hf3, H3⟩, ⟨%f4, %hf4, H4⟩, ⟨%s, %f7, -, H7⟩, Hk⟩
  obtain rfl := harg3.eq_unread hf3; obtain rfl := harg4.eq_unread hf4
  sl_exec (disch := first | exact h1 | exact h2)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  rw [View.read_writes_eq_canon _ _ _ (cover_head _ hz2 _ _ _)]
  sl_unfold_words
  rw [View.canon_cons_unit_zero (S := S512x512) hz2]
  simp only [View.readAt_eq_ld, harg3.read_unread, harg4.read_unread, View.ld_unit_zero (S := S512x2048) hz2,
    View.readCov_unit_zero (S := S512x512) _ hz2]

set_option maxHeartbeats 1000000 in
/-- A point that closes a reduction (the reduction coordinate is 1, so the opening conditional is not taken): the
    point's product is added to the accumulator `s` the point before left, and the output block is stored whole from
    the new accumulator and the bias block; the operand blocks and the bias block are read and left as they were. -/
theorem run0_last (c : Dev nD) (E : Set ℕ) (i : grid0.Coords) (h1 : ¬ isFirst0 i) (h2 : k0_cond2 i = 1#1)
    (arg3 : Memref sig .tc .vmem S512x2048 .f32) (harg3 : arg3.IsWhole) (arg4 : Memref sig .tc .vmem S512x2048 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (x w : Vec F S512x2048 .f32) (b : Vec F S1x512 .f32) (s : Vec F S512x512 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k0_pay3 (k0_pay2 x w s) b)
            ∗ owns (c : Thread nD τ) arg7 fullShare (k0_pay2 x w s)) -∗ K ⟨⟩))
      ⊢ wp frame (wpE (defs₀ (F := F)) Variants.none c none) E (cc0__mm_bias_kernel i arg3 harg3 arg4 harg4 arg5 harg5 arg6 harg6 arg7 harg7) K := by
  simp only [cc0__mm_bias_kernel_eq_skeleton]; unfold cc0__mm_bias_kernel_skel
  unfold owns
  iintro ⟨⟨%f3, %hf3, H3⟩, ⟨%f4, %hf4, H4⟩, ⟨%f5, %hf5, H5⟩, ⟨%d, %f6, -, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact h1 | exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (cover_head _ hz2 _ _ _), View.canon_cons_unit_zero (S := S512x512) hz2]
    simp only [View.readAt_eq_ld, harg3.read_unread, harg4.read_unread, harg5.read_unread, harg7.read_unread,
      View.ld_unit_zero (S := S512x2048) hz2, View.ld_unit_zero (S := S1x512) hz2, View.ld_unit_zero (S := S512x512) hz2,
      View.readCov_unit_zero (S := S512x512) _ hz2]
  iexists _; isplitr
  swap; · iexact H7
  ipureintro
  sl_unfold_words
  rw [View.read_writes_eq_canon _ _ _ (cover_head _ hz2 _ _ _), View.canon_cons_unit_zero (S := S512x512) hz2]
  simp only [View.readAt_eq_ld, harg3.read_unread, harg4.read_unread, harg5.read_unread, harg7.read_unread,
    View.ld_unit_zero (S := S512x2048) hz2, View.ld_unit_zero (S := S1x512) hz2, View.ld_unit_zero (S := S512x512) hz2,
    View.readCov_unit_zero (S := S512x512) _ hz2]

end Cert.KernelIdeal.Hand

end
-- ==== Proof.KernelIdeal.Rest0.lean ====
import proofs.«139539_j81106162418172_1_alg».proof.Proof.Gen.KernelIdeal.Launch
import proofs.«139539_j81106162418172_1_alg».proof.Proof.Gen.KernelIdeal.Skeleton
import proofs.«139539_j81106162418172_1_alg».proof.Proof.Gen.KernelIdeal.Points
import proofs.«139539_j81106162418172_1_alg».proof.Proof.KernelIdeal.Common
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the launch hands the first kernel region beside its windows

The core's scoped buffers that are no staging buffer of the first region: the region's own scratch accumulator, and the
second region's staging buffers and accumulator, which the first region's body never touches. -/

/-- The scratch accumulator as a memref. -/
abbrev scM0 : Memref sig .tc .vmem S512x512 .f32 := Memref.whole cc0_scratch0

/-- The core's other scoped buffers that are no staging buffer of this region (the second region's staging buffers and
    accumulator), each whole at some contents: the body never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the launch hands the region is the accumulator at some contents, the other scoped buffers and the generator
    register, -/
theorem PhiA0_in (c : Dev nD) :
    (Pipeline.ΦA spec0 c : sProp 𝕄) ⊢ iprop((∃ s, owns (c : Thread nD τ) scM0 fullShare s) ∗ others0 (F := F) c ∗ (∃ r, prngReg c r)) := by
  unfold Pipeline.ΦA others0; rw [scopedRest0_eq]; simp only [scM0, owns_whole]
  iintro ⟨⟨Hs, Hr⟩, Hg⟩
  isplitl [Hs]; · iexact Hs
  isplitl [Hr]; · iexact Hr
  iexact Hg
/-- and conversely. -/
theorem PhiA0_out (c : Dev nD) :
    iprop((∃ s, owns (c : Thread nD τ) scM0 fullShare s) ∗ others0 (F := F) c ∗ (∃ r, prngReg c r)) ⊢ (Pipeline.ΦA spec0 c : sProp 𝕄) := by
  unfold Pipeline.ΦA others0; rw [scopedRest0_eq]; simp only [scM0, owns_whole]
  iintro ⟨Hs, Hr, Hg⟩
  isplitl [Hs Hr]
  · isplitl [Hs]; · iexact Hs
    iexact Hr
  iexact Hg

end Cert.KernelIdeal.Hand

end
-- ==== Proof.KernelIdeal.Data0.lean ====
import proofs.«139539_j81106162418172_1_alg».proof.Proof.Gen.KernelIdeal.Launch
import proofs.«139539_j81106162418172_1_alg».proof.Proof.Gen.KernelIdeal.Skeleton
import proofs.«139539_j81106162418172_1_alg».proof.Proof.Gen.KernelIdeal.Points
import proofs.«139539_j81106162418172_1_alg».proof.Proof.KernelIdeal.Runs0
import proofs.«139539_j81106162418172_1_alg».proof.Proof.KernelIdeal.Rest0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel region: its proof data and its body obligation

The grid is 8 × 8 × 2, the last axis the reduction's, so the points come in pairs: an even point `2n` opens the
reduction for an output block (the accumulator is zeroed and the first product added) and the odd point `2n + 1` closes
it (the second product added, the output block stored from the accumulator and the bias block, and written back).
Everything is stated at a PARAMETER `V`: the TensorCore's buffer contents when the region is entered. -/

variable (V : (c : Dev nD) → (b : Ref sig .tc) → Buf (Elt F) ((c : Thread nD τ).loc b))

/-! ## The schedule, decided over the grid -/

/-- The opening conditional is taken at the even points, -/
theorem hfirst0 : ∀ t : Fin cfg0.N, isFirst0 (grid0.coords t) ↔ t.val % 2 = 0 :=
  (by decide +kernel : ∀ t : Fin grid0.N, isFirst0 (grid0.coords t) ↔ t.val % 2 = 0)
/-- the closing one at the odd points. -/
theorem hlast0 : ∀ t : Fin cfg0.N, k0_cond2 (grid0.coords t) = 1#1 ↔ t.val % 2 = 1 :=
  (by decide +kernel : ∀ t : Fin grid0.N, k0_cond2 (grid0.coords t) = 1#1 ↔ t.val % 2 = 1)
/-- The output window is idle at the even points (the body stores nothing into it there), -/
theorem idle0_3 : ∀ t : Fin cfg0.N, t.val % 2 = 0 → cfg0.idle 3 (grid0.coords t) = true :=
  (by decide +kernel : ∀ t : Fin grid0.N, t.val % 2 = 0 → cfg0.idle 3 (grid0.coords t) = true)
/-- and live at the odd ones. -/
theorem live0_3 : ∀ t : Fin cfg0.N, t.val % 2 = 1 → cfg0.idle 3 (grid0.coords t) = false :=
  (by decide +kernel : ∀ t : Fin grid0.N, t.val % 2 = 1 → cfg0.idle 3 (grid0.coords t) = false)

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's block, the stored matrix's block and the bias block at a point, at their literal types. -/
abbrev xblk0 (c : Dev nD) (t : Fin cfg0.N) : Vec F S512x2048 .f32 := iblk0 V c 0 t
abbrev wblk0 (c : Dev nD) (t : Fin cfg0.N) : Vec F S512x2048 .f32 := iblk0 V c 1 t
abbrev bblk0 (c : Dev nD) (t : Fin cfg0.N) : Vec F S1x512 .f32 := iblk0 V c 2 t

/-- An input window's current staging buffer holds its block at every point, fetched there or not (the bias window is
    fetched at the even points only, and its block index does not move at the odd ones). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the accumulator and the output block hold -/

/-- The point before. -/
def prev0 (t : Fin cfg0.N) : Fin cfg0.N := ⟨t.val - 1, Nat.lt_of_le_of_lt (Nat.sub_le _ _) t.isLt⟩

/-- The accumulator after an opening point: zero plus the point's product. -/
def accA0 (c : Dev nD) (t : Fin cfg0.N) : Vec F S512x512 .f32 := k0_pay2 (xblk0 V c t) (wblk0 V c t) k0_pay1
/-- The accumulator after a closing point: what the opening point before it left, plus the point's product. -/
def accB0 (c : Dev nD) (t : Fin cfg0.N) : Vec F S512x512 .f32 := k0_pay2 (xblk0 V c t) (wblk0 V c t) (accA0 V c (prev0 t))
/-- The accumulator after the point at position `n`. -/
def acc0 (c : Dev nD) (n : ℕ) : Vec F S512x512 .f32 :=
  if h : n < cfg0.N then (if n % 2 = 0 then accA0 V c ⟨n, h⟩ else accB0 V c ⟨n, h⟩) else k0_pay1
/-- The output block a closing point stores: the closed accumulator plus the bias row down the rows. -/
def out0 (c : Dev nD) (t : Fin cfg0.N) : Vec F S512x512 .f32 := k0_pay3 (accB0 V c t) (bblk0 V c t)

theorem acc0_even (c : Dev nD) (t : Fin cfg0.N) (h : t.val % 2 = 0) : acc0 V c t.val = accA0 V c t := by
  unfold acc0; rw [dif_pos t.isLt, if_pos h]
theorem acc0_odd (c : Dev nD) (t : Fin cfg0.N) (h : t.val % 2 = 1) : acc0 V c t.val = accB0 V c t := by
  unfold acc0; rw [dif_pos t.isLt, if_neg (by omega)]
theorem acc0_prev (c : Dev nD) (t : Fin cfg0.N) (h : t.val % 2 = 1) : acc0 V c (t.val - 1) = accA0 V c (prev0 t) :=
  acc0_even V c (prev0 t) (by show (t.val - 1) % 2 = 0; omega)

/-! ## The region invariant: the accumulator between points -/

/-- The invariant before position `n`: before the first point what the launch hands the region; afterwards the
    accumulator at what the point before left in it, beside the other scoped buffers and the generator register. -/
def Phi0 (c : Dev nD) : ℕ → sProp 𝕄
  | 0 => Pipeline.ΦA spec0 c
  | n + 1 => iprop(owns (c : Thread nD τ) scM0 fullShare (acc0 V c n) ∗ others0 (F := F) c ∗ (∃ r, prngReg c r))

theorem Phi0_succ (c : Dev nD) (n : ℕ) :
    Phi0 V c (n + 1) = iprop(owns (c : Thread nD τ) scM0 fullShare (acc0 V c n) ∗ others0 (F := F) c ∗ (∃ r, prngReg c r)) := rfl
theorem Phi0_pos (c : Dev nD) (n : ℕ) (hn : n ≠ 0) :
    Phi0 V c n = iprop(owns (c : Thread nD τ) scM0 fullShare (acc0 V c (n - 1)) ∗ others0 (F := F) c ∗ (∃ r, prngReg c r)) := by
  cases n with
  | zero => exact absurd rfl hn
  | succ n => rfl
/-- At any position the invariant holds the accumulator at SOME contents. -/
theorem Phi0_forget (c : Dev nD) (n : ℕ) :
    Phi0 V c n ⊢ iprop((∃ s, owns (c : Thread nD τ) scM0 fullShare s) ∗ others0 (F := F) c ∗ (∃ r, prngReg c r)) := by
  cases n with
  | zero => exact PhiA0_in c
  | succ n =>
    rw [Phi0_succ]
    iintro ⟨Hx, Hr, Hg⟩
    isplitl [Hx]; · iexists _; iexact Hx
    isplitl [Hr]; · iexact Hr
    iexact Hg

/-! ## The proof data -/

/-- The proof data of the first pipeline on core `c`: the arrays as the region finds them; after the body each input's
    buffer at its block and the output's at the block a closing point stores (at an opening point the output window is idle
    and the field is not consulted); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem Phi0_castSucc (c : Dev nD) (t : Fin cfg0.N) : (dat0 V c).Φ t.castSucc = Phi0 V c t.val := rfl
theorem Phi0_atSucc (c : Dev nD) (t : Fin cfg0.N) : (dat0 V c).Φ t.succ = Phi0 V c (t.val + 1) := rfl

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 2000000 in
/-- The body at any point. At an even point the accumulator, at whatever the invariant holds it, is reset and takes the
    first product; the output window is handed back as found. At an odd point the accumulator holds what the even point
    before left; it takes the second product, and the output block is stored. The operand and bias blocks sit in their
    staging buffers at every point; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [Phi0_castSucc, Phi0_atSucc, Phi0_succ]
  rw [show (dat0 V c).leavesExact 0 t = owns (c : Thread nD τ) (st0_0 t) fullShare ((dat0 V c).after 0 t) from rfl, after0_0,
    show (dat0 V c).leavesExact 1 t = owns (c : Thread nD τ) (st0_1 t) fullShare ((dat0 V c).after 1 t) from rfl, after0_1,
    show (dat0 V c).leavesExact 2 t = owns (c : Thread nD τ) (st0_2 t) fullShare ((dat0 V c).after 2 t) from rfl, after0_2]
  by_cases he : t.val % 2 = 0
  · have ho : ¬ t.val % 2 = 1 := by omega
    rw [Dat.leavesExact_idle (dat0 V c) 3 t (idle0_3 t he) (Bool.eq_false_iff.mpr fun h => ho ((flush0_3 t).mp h))]
    rw [acc0_even V c t he]
    iintro ⟨HΦ, Ho, ⟨%dx, Hx⟩, ⟨%dw, Hw⟩, ⟨%db, Hb⟩, ⟨%dy, Hy⟩⟩
    ihave HΦ' := (Phi0_forget V c t.val) $$ HΦ
    icases HΦ' with ⟨HS, Hr, Hg⟩
    iapply (run0_first c Set.univ (grid0.coords t) ((hfirst0 t).mpr he) (fun h => ho ((hlast0 t).mp h)) _ _ _ _ _ _ _ _ _ _ (xblk0 V c t) (wblk0 V c t) _)
    isplitl [Hx]; · iexact Hx
    isplitl [Hw]; · iexact Hw
    isplitl [HS]; · iexact HS
    iintro ⟨Hx, Hw, HS⟩
    isplitl [HS Hr Hg]
    · isplitl [HS]; · iexact HS
      isplitl [Hr]; · iexact Hr
      iexact Hg
    isplitl [Ho]; · iexact Ho
    isplitl [Hx]; · iexact Hx
    isplitl [Hw]; · iexact Hw
    isplitl [Hb]; · iexact Hb
    iexists _; iexact Hy
  · have ho : t.val % 2 = 1 := by omega
    have hz : t.val ≠ 0 := by omega
    rw [show (dat0 V c).leavesExact 3 t = owns (c : Thread nD τ) (st0_3 t) fullShare ((dat0 V c).after 3 t) from by
      unfold Dat.leavesExact; rw [live0_3 t ho], after0_3]
    rw [acc0_odd V c t ho, Phi0_pos V c _ hz, acc0_prev V c t ho]
    iintro ⟨⟨HS, Hr, Hg⟩, Ho, ⟨%dx, Hx⟩, ⟨%dw, Hw⟩, ⟨%db, Hb⟩, ⟨%dy, Hy⟩⟩
    iapply (run0_last c Set.univ (grid0.coords t) (fun h => he ((hfirst0 t).mp h)) ((hlast0 t).mpr ho) _ _ _ _ _ _ _ _ _ _ (xblk0 V c t) (wblk0 V c t) (bblk0 V c t) (accA0 V c (prev0 t)) _)
    isplitl [Hx]; · iexact Hx
    isplitl [Hw]; · iexact Hw
    isplitl [Hb]; · iexact Hb
    isplitl [Hy]; · iexists _; iexact Hy
    isplitl [HS]; · iexact HS
    iintro ⟨Hx, Hw, Hb, Hy, HS⟩
    isplitl [HS Hr Hg]
    · isplitl [HS]; · iexact HS
      isplitl [Hr]; · iexact Hr
      iexact Hg
    isplitl [Ho]; · iexact Ho
    isplitl [Hx]; · iexact Hx
    isplitl [Hw]; · iexact Hw
    isplitl [Hb]; · iexact Hb
    iexact Hy

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := .rfl

/-- and after the last point the invariant gives it back: the accumulator's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val from rfl]
  exact (Phi0_forget V c _).trans (PhiA0_out c)

end Cert.KernelIdeal.Hand

end
-- ==== Proof.KernelIdeal.Runs1.lean ====
import proofs.«139539_j81106162418172_1_alg».proof.Proof.Gen.KernelIdeal.Launch
import proofs.«139539_j81106162418172_1_alg».proof.Proof.Gen.KernelIdeal.Skeleton
import proofs.«139539_j81106162418172_1_alg».proof.Proof.Gen.KernelIdeal.Points
import proofs.«139539_j81106162418172_1_alg».proof.Proof.KernelIdeal.Common
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body, run on any whole memrefs

Under the first conditional (the reduction coordinate is 0) the accumulator is zeroed; then the two operand blocks are
loaded, multiplied, and added to the accumulator; under the second conditional (the reduction coordinate is 1, the
last) the output block is computed from the accumulator and the bias block. The reduction axis has two points, so a
point takes exactly one of the two conditionals. -/

/-- The first conditional, from the grid coordinates: the reduction coordinate is 0. -/
abbrev isFirst1 (i : grid1.Coords) : Prop := (Scalar.cmpi .ne (Scalar.extui (Scalar.cmpi .eq (BitVec.ofNat 32 (i 2).val) 0#32)) 0#32) = 1#1

set_option maxHeartbeats 1000000 in
/-- A point that opens a reduction (the reduction coordinate is 0, so the closing conditional is not taken): the
    accumulator, whatever it held, is zeroed and the point's product added; the two operand blocks are read and left
    as they were; the bias block and the output block are not touched. -/
theorem run1_first (c : Dev nD) (E : Set ℕ) (i : grid1.Coords) (h1 : isFirst1 i) (h2 : ¬ k1_cond2 i = 1#1)
    (arg3 : Memref sig .tc .vmem S512x2048 .f32) (harg3 : arg3.IsWhole) (arg4 : Memref sig .tc .vmem S512x2048 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (x w : Vec F S512x2048 .f32) (K : PUnit → sProp 𝕄) :
    iprop(owns (c : Thread nD τ) arg3 fullShare x ∗ owns (c : Thread nD τ) arg4 fullShare w ∗ (∃ s, owns (c : Thread nD τ) arg7 fullShare s)
        ∗ (iprop(owns (c : Thread nD τ) arg3 fullShare x ∗ owns (c : Thread nD τ) arg4 fullShare w
            ∗ owns (c : Thread nD τ) arg7 fullShare (k1_pay2 x w k1_pay1)) -∗ K ⟨⟩))
      ⊢ wp frame (wpE (defs₀ (F := F)) Variants.none c none) E (cc1__mm_cos_kernel i arg3 harg3 arg4 harg4 arg5 harg5 arg6 harg6 arg7 harg7) K := by
  simp only [cc1__mm_cos_kernel_eq_skeleton]; unfold cc1__mm_cos_kernel_skel
  unfold owns
  iintro ⟨⟨%f3, %hf3, H3⟩, ⟨%f4, %hf4, H4⟩, ⟨%s, %f7, -, H7⟩, Hk⟩
  obtain rfl := harg3.eq_unread hf3; obtain rfl := harg4.eq_unread hf4
  sl_exec (disch := first | exact h1 | exact h2)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  rw [View.read_writes_eq_canon _ _ _ (cover_head _ hz2 _ _ _)]
  sl_unfold_words
  rw [View.canon_cons_unit_zero (S := S512x512) hz2]
  simp only [View.readAt_eq_ld, harg3.read_unread, harg4.read_unread, View.ld_unit_zero (S := S512x2048) hz2,
    View.readCov_unit_zero (S := S512x512) _ hz2]

set_option maxHeartbeats 1000000 in
/-- A point that closes a reduction (the reduction coordinate is 1, so the opening conditional is not taken): the
    point's product is added to the accumulator `s` the point before left, and the output block is stored whole from
    the new accumulator and the bias block; the operand blocks and the bias block are read and left as they were. -/
theorem run1_last (c : Dev nD) (E : Set ℕ) (i : grid1.Coords) (h1 : ¬ isFirst1 i) (h2 : k1_cond2 i = 1#1)
    (arg3 : Memref sig .tc .vmem S512x2048 .f32) (harg3 : arg3.IsWhole) (arg4 : Memref sig .tc .vmem S512x2048 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S512x512 .f32) (harg7 : arg7.IsWhole)
    (x w : Vec F S512x2048 .f32) (b : Vec F S1x512 .f32) (s : Vec F S512x512 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 x w s) b)
            ∗ owns (c : Thread nD τ) arg7 fullShare (k1_pay2 x w s)) -∗ K ⟨⟩))
      ⊢ wp frame (wpE (defs₀ (F := F)) Variants.none c none) E (cc1__mm_cos_kernel i arg3 harg3 arg4 harg4 arg5 harg5 arg6 harg6 arg7 harg7) K := by
  simp only [cc1__mm_cos_kernel_eq_skeleton]; unfold cc1__mm_cos_kernel_skel
  unfold owns
  iintro ⟨⟨%f3, %hf3, H3⟩, ⟨%f4, %hf4, H4⟩, ⟨%f5, %hf5, H5⟩, ⟨%d, %f6, -, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact h1 | exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (cover_head _ hz2 _ _ _), View.canon_cons_unit_zero (S := S512x512) hz2]
    simp only [View.readAt_eq_ld, harg3.read_unread, harg4.read_unread, harg5.read_unread, harg7.read_unread,
      View.ld_unit_zero (S := S512x2048) hz2, View.ld_unit_zero (S := S1x512) hz2, View.ld_unit_zero (S := S512x512) hz2,
      View.readCov_unit_zero (S := S512x512) _ hz2]
  iexists _; isplitr
  swap; · iexact H7
  ipureintro
  sl_unfold_words
  rw [View.read_writes_eq_canon _ _ _ (cover_head _ hz2 _ _ _), View.canon_cons_unit_zero (S := S512x512) hz2]
  simp only [View.readAt_eq_ld, harg3.read_unread, harg4.read_unread, harg5.read_unread, harg7.read_unread,
    View.ld_unit_zero (S := S512x2048) hz2, View.ld_unit_zero (S := S1x512) hz2, View.ld_unit_zero (S := S512x512) hz2,
    View.readCov_unit_zero (S := S512x512) _ hz2]

end Cert.KernelIdeal.Hand

end
-- ==== Proof.KernelIdeal.Rest1.lean ====
import proofs.«139539_j81106162418172_1_alg».proof.Proof.Gen.KernelIdeal.Launch
import proofs.«139539_j81106162418172_1_alg».proof.Proof.Gen.KernelIdeal.Skeleton
import proofs.«139539_j81106162418172_1_alg».proof.Proof.Gen.KernelIdeal.Points
import proofs.«139539_j81106162418172_1_alg».proof.Proof.KernelIdeal.Common
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the launch hands the second kernel region beside its windows

The core's scoped buffers that are no staging buffer of the second region: the region's own scratch accumulator, and the
first region's staging buffers and accumulator, which the second region's body never touches. -/

/-- The scratch accumulator as a memref. -/
abbrev scM1 : Memref sig .tc .vmem S512x512 .f32 := Memref.whole cc1_scratch0

/-- The core's other scoped buffers that are no staging buffer of this region (the first region's staging buffers and
    accumulator), each whole at some contents: the body never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- What the launch hands the region is the accumulator at some contents, the other scoped buffers and the generator
    register, -/
theorem PhiA1_in (c : Dev nD) :
    (Pipeline.ΦA spec1 c : sProp 𝕄) ⊢ iprop((∃ s, owns (c : Thread nD τ) scM1 fullShare s) ∗ others1 (F := F) c ∗ (∃ r, prngReg c r)) := by
  unfold Pipeline.ΦA others1; rw [scopedRest1_eq]; simp only [scM1, owns_whole]
  iintro ⟨⟨Ha, Hb, Hc, Hd, He, Hf, Hg', Hh, Hi, Hs⟩, Hg⟩
  isplitl [Hs]; · iexact Hs
  isplitr [Hg]
  · isplitl [Ha]; · iexact Ha
    isplitl [Hb]; · iexact Hb
    isplitl [Hc]; · iexact Hc
    isplitl [Hd]; · iexact Hd
    isplitl [He]; · iexact He
    isplitl [Hf]; · iexact Hf
    isplitl [Hg']; · iexact Hg'
    isplitl [Hh]; · iexact Hh
    iexact Hi
  iexact Hg
/-- and conversely. -/
theorem PhiA1_out (c : Dev nD) :
    iprop((∃ s, owns (c : Thread nD τ) scM1 fullShare s) ∗ others1 (F := F) c ∗ (∃ r, prngReg c r)) ⊢ (Pipeline.ΦA spec1 c : sProp 𝕄) := by
  unfold Pipeline.ΦA others1; rw [scopedRest1_eq]; simp only [scM1, owns_whole]
  iintro ⟨Hs, ⟨Ha, Hb, Hc, Hd, He, Hf, Hg', Hh, Hi⟩, Hg⟩
  isplitr [Hg]
  · isplitl [Ha]; · iexact Ha
    isplitl [Hb]; · iexact Hb
    isplitl [Hc]; · iexact Hc
    isplitl [Hd]; · iexact Hd
    isplitl [He]; · iexact He
    isplitl [Hf]; · iexact Hf
    isplitl [Hg']; · iexact Hg'
    isplitl [Hh]; · iexact Hh
    isplitl [Hi]; · iexact Hi
    iexact Hs
  iexact Hg

end Cert.KernelIdeal.Hand

end
-- ==== Proof.KernelIdeal.Data1.lean ====
import proofs.«139539_j81106162418172_1_alg».proof.Proof.Gen.KernelIdeal.Launch
import proofs.«139539_j81106162418172_1_alg».proof.Proof.Gen.KernelIdeal.Skeleton
import proofs.«139539_j81106162418172_1_alg».proof.Proof.Gen.KernelIdeal.Points
import proofs.«139539_j81106162418172_1_alg».proof.Proof.KernelIdeal.Runs1
import proofs.«139539_j81106162418172_1_alg».proof.Proof.KernelIdeal.Rest1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region: its proof data and its body obligation

The grid is 8 × 8 × 2, the last axis the reduction's, so the points come in pairs: an even point `2n` opens the
reduction for an output block (the accumulator is zeroed and the first product added) and the odd point `2n + 1` closes
it (the second product added, the output block stored from the accumulator and the bias block, and written back).
Everything is stated at a PARAMETER `V`: the TensorCore's buffer contents when the region is entered. -/

variable (V : (c : Dev nD) → (b : Ref sig .tc) → Buf (Elt F) ((c : Thread nD τ).loc b))

/-! ## The schedule, decided over the grid -/

/-- The opening conditional is taken at the even points, -/
theorem hfirst1 : ∀ t : Fin cfg1.N, isFirst1 (grid1.coords t) ↔ t.val % 2 = 0 :=
  (by decide +kernel : ∀ t : Fin grid1.N, isFirst1 (grid1.coords t) ↔ t.val % 2 = 0)
/-- the closing one at the odd points. -/
theorem hlast1 : ∀ t : Fin cfg1.N, k1_cond2 (grid1.coords t) = 1#1 ↔ t.val % 2 = 1 :=
  (by decide +kernel : ∀ t : Fin grid1.N, k1_cond2 (grid1.coords t) = 1#1 ↔ t.val % 2 = 1)
/-- The output window is idle at the even points (the body stores nothing into it there), -/
theorem idle1_3 : ∀ t : Fin cfg1.N, t.val % 2 = 0 → cfg1.idle 3 (grid1.coords t) = true :=
  (by decide +kernel : ∀ t : Fin grid1.N, t.val % 2 = 0 → cfg1.idle 3 (grid1.coords t) = true)
/-- and live at the odd ones. -/
theorem live1_3 : ∀ t : Fin cfg1.N, t.val % 2 = 1 → cfg1.idle 3 (grid1.coords t) = false :=
  (by decide +kernel : ∀ t : Fin grid1.N, t.val % 2 = 1 → cfg1.idle 3 (grid1.coords t) = false)

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's block, the stored matrix's block and the bias block at a point, at their literal types. -/
abbrev xblk1 (c : Dev nD) (t : Fin cfg1.N) : Vec F S512x2048 .f32 := iblk1 V c 0 t
abbrev wblk1 (c : Dev nD) (t : Fin cfg1.N) : Vec F S512x2048 .f32 := iblk1 V c 1 t
abbrev bblk1 (c : Dev nD) (t : Fin cfg1.N) : Vec F S1x512 .f32 := iblk1 V c 2 t

/-- An input window's current staging buffer holds its block at every point, fetched there or not (the bias window is
    fetched at the even points only, and its block index does not move at the odd ones). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the accumulator and the output block hold -/

/-- The point before. -/
def prev1 (t : Fin cfg1.N) : Fin cfg1.N := ⟨t.val - 1, Nat.lt_of_le_of_lt (Nat.sub_le _ _) t.isLt⟩

/-- The accumulator after an opening point: zero plus the point's product. -/
def accA1 (c : Dev nD) (t : Fin cfg1.N) : Vec F S512x512 .f32 := k1_pay2 (xblk1 V c t) (wblk1 V c t) k1_pay1
/-- The accumulator after a closing point: what the opening point before it left, plus the point's product. -/
def accB1 (c : Dev nD) (t : Fin cfg1.N) : Vec F S512x512 .f32 := k1_pay2 (xblk1 V c t) (wblk1 V c t) (accA1 V c (prev1 t))
/-- The accumulator after the point at position `n`. -/
def acc1 (c : Dev nD) (n : ℕ) : Vec F S512x512 .f32 :=
  if h : n < cfg1.N then (if n % 2 = 0 then accA1 V c ⟨n, h⟩ else accB1 V c ⟨n, h⟩) else k1_pay1
/-- The output block a closing point stores: the closed accumulator plus the bias row down the rows. -/
def out1 (c : Dev nD) (t : Fin cfg1.N) : Vec F S512x512 .f32 := k1_pay3 (accB1 V c t) (bblk1 V c t)

theorem acc1_even (c : Dev nD) (t : Fin cfg1.N) (h : t.val % 2 = 0) : acc1 V c t.val = accA1 V c t := by
  unfold acc1; rw [dif_pos t.isLt, if_pos h]
theorem acc1_odd (c : Dev nD) (t : Fin cfg1.N) (h : t.val % 2 = 1) : acc1 V c t.val = accB1 V c t := by
  unfold acc1; rw [dif_pos t.isLt, if_neg (by omega)]
theorem acc1_prev (c : Dev nD) (t : Fin cfg1.N) (h : t.val % 2 = 1) : acc1 V c (t.val - 1) = accA1 V c (prev1 t) :=
  acc1_even V c (prev1 t) (by show (t.val - 1) % 2 = 0; omega)

/-! ## The region invariant: the accumulator between points -/

/-- The invariant before position `n`: before the first point what the launch hands the region; afterwards the
    accumulator at what the point before left in it, beside the other scoped buffers and the generator register. -/
def Phi1 (c : Dev nD) : ℕ → sProp 𝕄
  | 0 => Pipeline.ΦA spec1 c
  | n + 1 => iprop(owns (c : Thread nD τ) scM1 fullShare (acc1 V c n) ∗ others1 (F := F) c ∗ (∃ r, prngReg c r))

theorem Phi1_succ (c : Dev nD) (n : ℕ) :
    Phi1 V c (n + 1) = iprop(owns (c : Thread nD τ) scM1 fullShare (acc1 V c n) ∗ others1 (F := F) c ∗ (∃ r, prngReg c r)) := rfl
theorem Phi1_pos (c : Dev nD) (n : ℕ) (hn : n ≠ 0) :
    Phi1 V c n = iprop(owns (c : Thread nD τ) scM1 fullShare (acc1 V c (n - 1)) ∗ others1 (F := F) c ∗ (∃ r, prngReg c r)) := by
  cases n with
  | zero => exact absurd rfl hn
  | succ n => rfl
/-- At any position the invariant holds the accumulator at SOME contents. -/
theorem Phi1_forget (c : Dev nD) (n : ℕ) :
    Phi1 V c n ⊢ iprop((∃ s, owns (c : Thread nD τ) scM1 fullShare s) ∗ others1 (F := F) c ∗ (∃ r, prngReg c r)) := by
  cases n with
  | zero => exact PhiA1_in c
  | succ n =>
    rw [Phi1_succ]
    iintro ⟨Hx, Hr, Hg⟩
    isplitl [Hx]; · iexists _; iexact Hx
    isplitl [Hr]; · iexact Hr
    iexact Hg

/-! ## The proof data -/

/-- The proof data of the second pipeline on core `c`: the arrays as the region finds them; after the body each input's
    buffer at its block and the output's at the block a closing point stores (at an opening point the output window is idle
    and the field is not consulted); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem Phi1_castSucc (c : Dev nD) (t : Fin cfg1.N) : (dat1 V c).Φ t.castSucc = Phi1 V c t.val := rfl
theorem Phi1_atSucc (c : Dev nD) (t : Fin cfg1.N) : (dat1 V c).Φ t.succ = Phi1 V c (t.val + 1) := rfl

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 2000000 in
/-- The body at any point. At an even point the accumulator, at whatever the invariant holds it, is reset and takes the
    first product; the output window is handed back as found. At an odd point the accumulator holds what the even point
    before left; it takes the second product, and the output block is stored. The operand and bias blocks sit in their
    staging buffers at every point; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_castSucc, Phi1_atSucc, Phi1_succ]
  rw [show (dat1 V c).leavesExact 0 t = owns (c : Thread nD τ) (st1_0 t) fullShare ((dat1 V c).after 0 t) from rfl, after1_0,
    show (dat1 V c).leavesExact 1 t = owns (c : Thread nD τ) (st1_1 t) fullShare ((dat1 V c).after 1 t) from rfl, after1_1,
    show (dat1 V c).leavesExact 2 t = owns (c : Thread nD τ) (st1_2 t) fullShare ((dat1 V c).after 2 t) from rfl, after1_2]
  by_cases he : t.val % 2 = 0
  · have ho : ¬ t.val % 2 = 1 := by omega
    rw [Dat.leavesExact_idle (dat1 V c) 3 t (idle1_3 t he) (Bool.eq_false_iff.mpr fun h => ho ((flush1_3 t).mp h))]
    rw [acc1_even V c t he]
    iintro ⟨HΦ, Ho, ⟨%dx, Hx⟩, ⟨%dw, Hw⟩, ⟨%db, Hb⟩, ⟨%dy, Hy⟩⟩
    ihave HΦ' := (Phi1_forget V c t.val) $$ HΦ
    icases HΦ' with ⟨HS, Hr, Hg⟩
    iapply (run1_first c Set.univ (grid1.coords t) ((hfirst1 t).mpr he) (fun h => ho ((hlast1 t).mp h)) _ _ _ _ _ _ _ _ _ _ (xblk1 V c t) (wblk1 V c t) _)
    isplitl [Hx]; · iexact Hx
    isplitl [Hw]; · iexact Hw
    isplitl [HS]; · iexact HS
    iintro ⟨Hx, Hw, HS⟩
    isplitl [HS Hr Hg]
    · isplitl [HS]; · iexact HS
      isplitl [Hr]; · iexact Hr
      iexact Hg
    isplitl [Ho]; · iexact Ho
    isplitl [Hx]; · iexact Hx
    isplitl [Hw]; · iexact Hw
    isplitl [Hb]; · iexact Hb
    iexists _; iexact Hy
  · have ho : t.val % 2 = 1 := by omega
    have hz : t.val ≠ 0 := by omega
    rw [show (dat1 V c).leavesExact 3 t = owns (c : Thread nD τ) (st1_3 t) fullShare ((dat1 V c).after 3 t) from by
      unfold Dat.leavesExact; rw [live1_3 t ho], after1_3]
    rw [acc1_odd V c t ho, Phi1_pos V c _ hz, acc1_prev V c t ho]
    iintro ⟨⟨HS, Hr, Hg⟩, Ho, ⟨%dx, Hx⟩, ⟨%dw, Hw⟩, ⟨%db, Hb⟩, ⟨%dy, Hy⟩⟩
    iapply (run1_last c Set.univ (grid1.coords t) (fun h => he ((hfirst1 t).mp h)) ((hlast1 t).mpr ho) _ _ _ _ _ _ _ _ _ _ (xblk1 V c t) (wblk1 V c t) (bblk1 V c t) (accA1 V c (prev1 t)) _)
    isplitl [Hx]; · iexact Hx
    isplitl [Hw]; · iexact Hw
    isplitl [Hb]; · iexact Hb
    isplitl [Hy]; · iexists _; iexact Hy
    isplitl [HS]; · iexact HS
    iintro ⟨Hx, Hw, Hb, Hy, HS⟩
    isplitl [HS Hr Hg]
    · isplitl [HS]; · iexact HS
      isplitl [Hr]; · iexact Hr
      iexact Hg
    isplitl [Ho]; · iexact Ho
    isplitl [Hx]; · iexact Hx
    isplitl [Hw]; · iexact Hw
    isplitl [Hb]; · iexact Hb
    iexact Hy

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := .rfl

/-- and after the last point the invariant gives it back: the accumulator's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val from rfl]
  exact (Phi1_forget V c _).trans (PhiA1_out c)

end Cert.KernelIdeal.Hand

end
-- ==== Proof.KernelIdeal.Launch.lean ====
import proofs.«139539_j81106162418172_1_alg».proof.Proof.Gen.KernelIdeal.Launch
import proofs.«139539_j81106162418172_1_alg».proof.Proof.Gen.KernelIdeal.Skeleton
import proofs.«139539_j81106162418172_1_alg».proof.Proof.Gen.KernelIdeal.Points
import proofs.«139539_j81106162418172_1_alg».proof.Proof.KernelIdeal.Data0
import proofs.«139539_j81106162418172_1_alg».proof.Proof.KernelIdeal.Data1
import proofs.«139539_j81106162418172_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program

@main is a host reshape (the first bias vector as a one-row matrix), the first kernel region, a second host reshape
(the second bias vector), the second kernel region. Between two of these items every unscoped buffer of the core is
held whole at a named valuation: the launch memory, then the first reshape's result written, then the first region's
arrays at what its write-backs leave, then the second reshape's result, then the second region's arrays. The run ends
with every unscoped buffer at the last valuation; the arguments are read back through the valuations to the launch
memory, and the result array is the second region's output array after its last write-back. -/

variable (m : (ℓ : Loc nD τ sig) → Buf (Elt F) ℓ) (ρ : Dev nD → PrngReg)

/-- Core `c`'s buffers at launch. -/
abbrev W0 : Dev nD → Valuation τ sig (Elt F) := fun c b => m (c, b)
/-- After the first reshape (the first region's entry). -/
abbrev W1 : Dev nD → Valuation τ sig (Elt F) := fun c => StableHlo.after hostOps0 (W0 m c)
/-- The same read at the TensorCore's references (what the first region's proof data take). -/
abbrev V1 : (c : Dev nD) → (b : Ref sig .tc) → Buf (Elt F) ((c : Thread nD τ).loc b) := fun c b => W1 m c b

/-- At the first region's exit: its arrays at what the pipeline leaves (the inputs as entered, the output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second reshape (the second region's entry). -/
abbrev W3 : Dev nD → Valuation τ sig (Elt F) := fun c => StableHlo.after hostOps1 (W2 m c)
/-- The same read at the TensorCore's references (what the second region's proof data take). -/
abbrev V3 : (c : Dev nD) → (b : Ref sig .tc) → Buf (Elt F) ((c : Thread nD τ).loc b) := fun c b => W3 m c b

/-- At the second region's exit: its arrays at what the pipeline leaves (the inputs as entered, the output's write-backs
    folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## A buffer no item writes keeps its contents -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

/-- The first region's two operand arrays are arguments: it reads them through input windows, which are never written. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := W1_of m c main_arg1 (by decide)
    _ = m ((c : Thread nD τ).loc main_arg1) := rfl
/-- The bias vectors are read by the host reshapes only. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
/-- The second stored matrix is the second region's input window 1. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := (W4_arr m c 1).trans (((dat1 (V3 m) c).arrAt_in 1 rfl _).trans (A_eq1 (V3 m) c 1))
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl

/-! ## The proof data family and the thread state -/

/-- The prefetched tables' admissible contents: no pipeline has a table. -/
abbrev admT : (p : Fin 2) → (pcfgs (F := F) p).Adm := fun p => (cfgs p).toPCfg_adm
/-- Every pipeline's proof data, each at its region's entry contents (a literal match on the pipeline's number). -/
def pdats : (p : Fin 2) → (c : Dev nD) → Dat τ (Elt F) Unit ℕ (UR sig nD τ) ℕ (Pipeline.pin (pcfgs (F := F)) admT p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last valuation, the generator register at
    some state. -/
abbrev Tₙ (c : Dev nD) : sProp 𝕄 := iprop(StableHlo.held (c : Thread nD τ) (Pipeline.ucRefs τ sig) (W4 m c) ∗ ∃ r, prngReg c r)

/-! ## The regions as segments -/

-- a library lemma stated over the pinned configuration unifies with the printed one only when unification may unfold
-- plain definitions in a metavariable's type
set_option backward.isDefEq.respectTransparency.types false in
/-- The first kernel region over the thread state: entered with every unscoped buffer at `W1`, left with them at
    `W2`. Its windows' arrays are split out of the unscoped buffers and put back at what the write-backs leave; the
    generator register goes into the region invariant and comes back; the accumulator is handed over at some contents
    and its final contents are forgotten; nothing is owed; the kernel has no semaphore of its own. -/
def reg0 : Pipeline.RegionSeg (pcfgs (F := F)) admT (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) admT (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second kernel region over the thread state: entered with every unscoped buffer at `W3`, left with them at
    `W4`. Its windows' arrays are split out of the unscoped buffers and put back at what the write-backs leave; the
    generator register goes into the region invariant and comes back; the accumulator is handed over at some contents
    and its final contents are forgotten; nothing is owed; the kernel has no semaphore of its own. -/
def reg1 : Pipeline.RegionSeg (pcfgs (F := F)) admT (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) admT (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four items in order. -/
abbrev segsT : List (Pipeline.Seg (pcfgs (F := F)) admT (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segsT m) := (main_chain c).trans (by chain_rfl)

-- the launch theorem's implicit arguments are found by unifying its conclusion with this one, which takes unfolding
-- plain definitions in a metavariable's type
set_option backward.isDefEq.respectTransparency.types false in
/-- THE RUN. From any memory with zero counters every weakly fair execution of @main on the TensorCores terminates,
    nothing faulting, and every final state has every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) admT (pdats m) () cellOf_inj emb₁ defs₀ 𝒱₀ L lv m ρ main (segsT m)
    (fun c Q => by rw [main_run m c])
    (by simp only [segsT, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

/-- The result array ends at what the second region's write-backs leave in it. -/
theorem result_at (c : Dev nD) : W4 m c (Proc.devRef .tc main_v3) = (dat1 (V3 m) c).arrAt 3 cfg1.N := W4_arr m c 3

/-- The second region finds in its left operand's array what the first region's write-backs left. -/
theorem V3_main_v1 (c : Dev nD) : V3 m c main_v1 = (dat0 (V1 m) c).arrAt 3 cfg0.N :=
  (W3_of m c main_v1 (by decide)).trans (W2_arr m c 3)
/-- It finds the second stored matrix as launched. -/
theorem V3_main_arg3 (c : Dev nD) : V3 m c main_arg3 = m ((c : Thread nD τ).loc main_arg3) :=
  (W3_of m c main_arg3 (by decide)).trans ((W2_of_ne m c main_arg3 (by decide)).trans (W1_of m c main_arg3 (by decide)))
/-- The first region finds its operand arrays as launched. -/
theorem V1_main_arg0 (c : Dev nD) : V1 m c main_arg0 = m ((c : Thread nD τ).loc main_arg0) := W1_of m c main_arg0 (by decide)
theorem V1_main_arg1 (c : Dev nD) : V1 m c main_arg1 = m ((c : Thread nD τ).loc main_arg1) := W1_of m c main_arg1 (by decide)

end Cert.KernelIdeal.Hand

end
-- ==== Proof.Spec.lean ====
/-
  The function both programs compute, on the extended reals.

  Two dense layers back to back and a pointwise tail. A dense layer takes a matrix `x` [4096, 4096], a stored weight
  matrix `W` [4096, 4096] (one row per output feature) and a bias vector `b` [4096]: entry (p, q) of its result is row p
  of `x` against row q of `W`, plus `b[q]`. The tail takes the cosine of every entry and flips the sign of the cosines
  whose magnitude is below the threshold the two programs share (the f32 nearest to 0.01, kept as its binary word).
-/
import Idealize.ShloMosaic.PureOps.Ideal
import Idealize.ShloMosaic.Lib.ValueIdx

noncomputable section

open scoped BigOperators

namespace Cert.Spec

open Idealize.ShloMosaic Idealize.ShloMosaic.ValueIdx

/-- The matrices' shape. -/
abbrev SM : Shape := ⟨2, ![4096, 4096]⟩
/-- The bias vectors' shape. -/
abbrev SB : Shape := ⟨1, ![4096]⟩

/-- Entry (p, q) of a dense layer: the sum over k of x[p,k] · W[q,k], plus b[q]. -/
def denseAt (x W : FVec Ideal SM .f32) (b : FVec Ideal SB .f32) (p q : Fin 4096) : EReal :=
  (∑ k : Fin 4096, x (ix2 p k) * W (ix2 q k)) + b (ix1 q)

/-- The dense layer as a whole array. -/
def dense (x W : FVec Ideal SM .f32) (b : FVec Ideal SB .f32) : FVec Ideal SM .f32 :=
  fun j => denseAt x W b (j 0) (j 1)

theorem dense_apply (x W : FVec Ideal SM .f32) (b : FVec Ideal SB .f32) (p q : Fin 4096) :
    dense x W b (ix2 p q) = denseAt x W b p q := rfl

/-- The threshold, as both programs spell it. -/
abbrev eps : EReal := Ideal.ofBits .f32 0x3C23D70A#32

/-- The sign flip of one cosine: `-c` where `|c| < eps`, else `c`. -/
def flipAt (c : EReal) : EReal :=
  Scalar.select (Ideal.cmp .olt (max c (-c)) eps) (-c) c

/-- The whole function: cosine of the second dense layer of the first, the small cosines' signs flipped. -/
def result (x W : FVec Ideal SM .f32) (b : FVec Ideal SB .f32) (g : FVec Ideal SM .f32) (gb : FVec Ideal SB .f32) :
    FVec Ideal SM .f32 :=
  fun j => flipAt (Ideal.cos (dense (dense x W b) g gb j))

theorem result_apply (x W : FVec Ideal SM .f32) (b : FVec Ideal SB .f32) (g : FVec Ideal SM .f32) (gb : FVec Ideal SB .f32)
    (p q : Fin 4096) :
    result x W b g gb (ix2 p q) = flipAt (Ideal.cos (denseAt (dense x W b) g gb p q)) := rfl

end Cert.Spec

end
-- ==== Proof.KernelIdeal.Result.lean ====
import proofs.«139539_j81106162418172_1_alg».proof.Proof.Gen.KernelIdeal.Launch
import proofs.«139539_j81106162418172_1_alg».proof.Proof.Gen.KernelIdeal.Skeleton
import proofs.«139539_j81106162418172_1_alg».proof.Proof.Gen.KernelIdeal.Points
import proofs.«139539_j81106162418172_1_alg».proof.Proof.KernelIdeal.Launch
import proofs.«139539_j81106162418172_1_alg».proof.Proof.Spec
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The result array of the idealized kernel program, as the shared function of the arguments

The run ends with the result array at what the second region's write-backs leave in its output array. Given what each
region's output array holds after its last write-back — a dense layer of the arrays the region finds in its first two
windows and of the vector whose one-row form it finds in the third, the second region's under the cosine and the sign
flip — the result is the specification's function of the five arguments: the second region finds in its left operand's
array what the first region left, the host reshapes hand each region its bias vector as a one-row matrix, and no item
writes an argument. -/

variable (m : (ℓ : Loc nD τ sig) → Buf (Elt Ideal) ℓ) (ρ : Dev nD → PrngReg)

/-- The first region finds in its third window's array the first bias vector as a one-row matrix. -/
theorem V1_main_v0 (c : Dev nD) :
    V1 m c main_v0 = shapeCast S1x4096 (m ((c : Thread nD τ).loc main_arg2)) shapeCasts_S4096_S1x4096 := by
  show StableHlo.after hostOps0 (fun b => m (c, b)) (Proc.devRef .tc main_v0) = _
  after_results
  rfl

/-- The second region finds in its third window's array the second bias vector as a one-row matrix. -/
theorem V3_main_v2 (c : Dev nD) :
    V3 m c main_v2 = shapeCast S1x4096 (m ((c : Thread nD τ).loc main_arg4)) shapeCasts_S4096_S1x4096 := by
  have e : W2 m c (Proc.devRef .tc main_arg4) = m ((c : Thread nD τ).loc main_arg4) :=
    (W2_of_ne m c main_arg4 (by decide)).trans (W1_of m c main_arg4 (by decide))
  show StableHlo.after hostOps1 (W2 m c) (Proc.devRef .tc main_v2) = _
  after_results
  rw [e]
  rfl

/-- The run of the idealized kernel program with its result named: given the two regions' output arrays as dense
    layers (`hfin0`, `hfin1`), the result array ends at the specification's function of the arguments, which end as
    launched. -/
theorem run_value
    (hfin0 : ∀ (V : (c : Dev nD) → (b : Ref sig .tc) → Buf (Elt Ideal) ((c : Thread nD τ).loc b)) (c : Dev nD)
      (b : FVec Ideal S4096 .f32), V c main_v0 = shapeCast S1x4096 b shapeCasts_S4096_S1x4096 →
      (dat0 (F := Ideal) V c).arrAt 3 cfg0.N = Cert.Spec.dense (V c main_arg0) (V c main_arg1) b)
    (hfin1 : ∀ (V : (c : Dev nD) → (b : Ref sig .tc) → Buf (Elt Ideal) ((c : Thread nD τ).loc b)) (c : Dev nD)
      (b : FVec Ideal S4096 .f32), V c main_v2 = shapeCast S1x4096 b shapeCasts_S4096_S1x4096 →
      (dat1 (F := Ideal) V c).arrAt 3 cfg1.N = fun j => Cert.Spec.flipAt (Ideal.cos (Cert.Spec.dense (V c main_v1) (V c main_arg3) b j))) :
    θ_run defs (onTc (τ := τ) (main (F := Ideal))) ⟨m, fun _ => 0, ρ⟩ (fun r => ∀ c : Dev nD,
      r.2.mem ((c.tc : Thread nD τ).loc main_v3) = Cert.Spec.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun _ h c => ⟨?_,
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)
  refine (h c _ (mem_uc main_v3 (by decide))).trans ((result_at m c).trans ?_)
  rw [hfin1 (V3 m) c _ (V3_main_v2 m c), V3_main_v1 m c, hfin0 (V1 m) c _ (V1_main_v0 m c),
    V3_main_arg3 m c, V1_main_arg0 m c, V1_main_arg1 m c]
  rfl

end Cert.KernelIdeal.Hand

end
-- ==== Proof.LibDotRows.lean ====
/-
  A matrix product against a stored [N, K] matrix, read at an index, on the extended reals.

  The dimension numbers contract the left operand's axis 1 with the right operand's axis 1 (no batch axis): an M×K
  matrix L against an N×K matrix W, the result M×N. Entry (p, q) of the product into a zero accumulator, and of the
  host's `dot_general` with the same numbers, is the sum over k of L[p,k] · W[q,k]: row p of L against row q of W.
  Generic in the three extents.
-/
import Idealize.ShloMosaic.PureOps.Ideal.Laws
import Idealize.ShloMosaic.Lib.ValueIdx

noncomputable section

open scoped BigOperators

namespace Cert.DotRows

open Idealize.ShloMosaic Idealize.ShloMosaic.ValueIdx

variable {M K N : Nat}

/-- The left operand's row coordinate is the result's row coordinate. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's column coordinate is the contraction's one coordinate. -/
theorem lhs1 (i : (⟨2, ![M, N]⟩ : Shape).Idx) (q : (DotDims.transposedRhs M K N).contr.Idx) :
    ((DotDims.transposedRhs M K N).lhsIdx i q 1).val
      = (q ⟨0, Nat.lt_of_lt_of_eq Nat.one_pos (Eq.symm (rfl : (DotDims.transposedRhs M K N).contr.rank = 1))⟩).val :=
  (DotDims.transposedRhs M K N).lhsIdx_val_of_single rfl i q

/-- The right operand's row coordinate is the result's column coordinate. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's column coordinate is the contraction's one coordinate. -/
theorem rhs1 (i : (⟨2, ![M, N]⟩ : Shape).Idx) (q : (DotDims.transposedRhs M K N).contr.Idx) :
    ((DotDims.transposedRhs M K N).rhsIdx i q 1).val
      = (q ⟨0, Nat.lt_of_lt_of_eq Nat.one_pos (Eq.symm (rfl : (DotDims.transposedRhs M K N).contr.rank = 1))⟩).val :=
  (DotDims.transposedRhs M K N).rhsIdx_val_of_single rfl i q

/-- The contraction's sum re-indexed by its one coordinate: row p of L against row q of W. -/
theorem sum_contr {φ₁ φ₂ : FTy} (L : FVec Ideal ⟨2, ![M, K]⟩ φ₁) (W : FVec Ideal ⟨2, ![N, K]⟩ φ₂) (p : Fin M) (q : Fin N) :
    (∑ k : (DotDims.transposedRhs M K N).contr.Idx,
        L ((DotDims.transposedRhs M K N).lhsIdx (ix2 p q) k) * W ((DotDims.transposedRhs M K N).rhsIdx (ix2 p q) k))
      = ∑ k : Fin K, L (ix2 p k) * W (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs0 _ _
      | ⟨1, _⟩ => exact (lhs1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs0 _ _
      | ⟨1, _⟩ => exact (rhs1 _ _).trans hk)
  rw [el, er]

/-- The vector unit's product into the zero accumulator, at (p, q). -/
theorem matmul_zero_apply {φ₁ φ₂ : FTy} (prec : Option ContractPrecision) (L : FVec Ideal ⟨2, ![M, K]⟩ φ₁)
    (W : FVec Ideal ⟨2, ![N, K]⟩ φ₂) (p : Fin M) (q : Fin N) :
    FloatOps.matmul (DotDims.transposedRhs M K N) prec L W (constant ⟨2, ![M, N]⟩ .f32 0x00000000#32) (ix2 p q)
      = ∑ k : Fin K, L (ix2 p k) * W (ix2 q k) := by
  rw [Ideal.matmul_constant_zero_apply]
  exact sum_contr L W p q

/-- The host's product with the same dimension numbers, at (p, q). -/
theorem dotGeneral_apply {φ₁ φ₂ : FTy} (prec : Option ContractPrecision) (sched : HostSchedule) (L : FVec Ideal ⟨2, ![M, K]⟩ φ₁)
    (W : FVec Ideal ⟨2, ![N, K]⟩ φ₂) (p : Fin M) (q : Fin N) :
    FloatOps.dotGeneral (DotDims.transposedRhs M K N) prec sched L W (ix2 p q) = ∑ k : Fin K, L (ix2 p k) * W (ix2 q k) := by
  rw [Ideal.dotGeneral_apply]
  exact sum_contr L W p q

end Cert.DotRows

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.KernelIdeal.Value0.lean ====
/-
  The value of the first dense layer's output array, at the ideal values.

  The region sweeps an 8 × 8 × 2 grid of points (i, j, k), numbered t = (i·8 + j)·2 + k. Output block (i, j), 512 × 512,
  is built over the two points of its reduction axis: at k = 0 a zero accumulator takes the product of rows block i of
  the left matrix against rows block j of the stored matrix over the first 2048 columns; at k = 1 it takes the same
  product over the last 2048 columns, the bias row is added down the rows, and the block is written back. So entry
  (p, q) of the block written at an odd point is

      (0 + ∑_{k < 2048} x[512 i + p, k] · W[512 j + q, k]) + ∑_{k < 2048} x[512 i + p, 2048 + k] · W[512 j + q, 2048 + k]
        + bias[0, 512 j + q],

  and the two half sums join into the sum over all 4096 columns: entry (512 i + p, 512 j + q) of the dense layer. The
  64 blocks written at the odd points tile the 4096 × 4096 array, so the array ends holding the dense layer.

  In order: the block indices at an odd point and at the point before it, decided over the grid; the three payloads
  read at an entry; each input block read at an entry as its array read at the shifted entry; a sum over 4096 terms as
  two sums over 2048; the block an odd point writes, entry by entry; what each writing point writes back as its block of
  the dense layer; the blocks cover the array; the array after the last point.
-/
import proofs.«139539_j81106162418172_1_alg».proof.Proof.KernelIdeal.Data0
import proofs.«139539_j81106162418172_1_alg».proof.Proof.Spec
import proofs.«139539_j81106162418172_1_alg».proof.Proof.LibDotRows
import proofs.«139539_j81106162418172_1_alg».proof.Proof.LibRowBias
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The arrays the region reads -/

/-- The left matrix, the stored matrix and the bias as a one-row matrix, as the region finds them, at their literal
    types (so that their entries multiply and add as extended reals). -/
abbrev xarr (c : Dev nD) : FVec Ideal S4096x4096 .f32 := V c main_arg0
abbrev warr (c : Dev nD) : FVec Ideal S4096x4096 .f32 := V c main_arg1
abbrev barr (c : Dev nD) : FVec Ideal S1x4096 .f32 := V c main_v0

/-! ## The block indices, decided over the grid -/

/-- At an odd point t = (i·8 + j)·2 + 1, with i = t / 16 and j = (t / 2) mod 8: the left matrix's block is (i, 1) and at
    the point before (i, 0); the stored matrix's block is (j, 1) and at the point before (j, 0); the bias row's block is
    (0, j); the output's block is (i, j). -/
theorem block_indices : ∀ t : Fin cfg0.N, t.val % 2 = 1 →
    win0_0.index t (0 : Fin 2) = t.val / 16 ∧ win0_0.index t (1 : Fin 2) = 1
    ∧ win0_0.index (prev0 t) (0 : Fin 2) = t.val / 16 ∧ win0_0.index (prev0 t) (1 : Fin 2) = 0
    ∧ win0_1.index t (0 : Fin 2) = (t.val / 2) % 8 ∧ win0_1.index t (1 : Fin 2) = 1
    ∧ win0_1.index (prev0 t) (0 : Fin 2) = (t.val / 2) % 8 ∧ win0_1.index (prev0 t) (1 : Fin 2) = 0
    ∧ win0_2.index t (0 : Fin 2) = 0 ∧ win0_2.index t (1 : Fin 2) = (t.val / 2) % 8
    ∧ win0_3.index t (0 : Fin 2) = t.val / 16 ∧ win0_3.index t (1 : Fin 2) = (t.val / 2) % 8 :=
  (by decide +kernel : ∀ t : Fin grid0.N, _)

/-! ## The payloads at an entry -/

/-- The product's dimension numbers contract both operands on their second axis: a matrix against the rows of a stored
    matrix. -/
theorem dims_are_rows_against_rows :
    dot_S512x2048_S512x2048_S512x512_1_1_0_0_n_n = DotDims.transposedRhs 512 2048 512 := rfl

/-- The block the accumulator is reset to is zero everywhere. -/
theorem zero_block_apply (p q : Fin 512) : (k0_pay1 (F := Ideal)) (ix2 p q) = 0 := by
  unfold k0_pay1
  rw [shapeCast_self]
  exact Ideal.ofBits_zero_f32

/-- One accumulation step at entry (p, q): what the accumulator held there plus row p of the left block against row q
    of the stored block. The narrowing of the operands is the identity on extended reals. -/
theorem accumulate_apply (x w : Vec Ideal S512x2048 .f32) (s : Vec Ideal S512x512 .f32) (p q : Fin 512) :
    k0_pay2 x w s (ix2 p q) = s (ix2 p q) + ∑ k : Fin 2048, x (ix2 p k) * w (ix2 q k) := by
  unfold k0_pay2
  rw [shapeCast_self]
  exact congrArg (s (ix2 p q) + ·) (Cert.DotRows.matmul_zero_apply (M := 512) (K := 2048) (N := 512) none x w p q)

/-- The closing step at entry (p, q): the accumulator there plus entry q of the bias row, the same in every row. -/
theorem add_bias_apply (acc : Vec Ideal S512x512 .f32) (bias : Vec Ideal S1x512 .f32) (p q : Fin 512) :
    k0_pay3 acc bias (ix2 p q) = acc (ix2 p q) + bias (ix2 (0 : Fin 1) q) := by
  unfold k0_pay3
  rw [shapeCast_self]
  exact congrArg (acc (ix2 p q) + ·) (Cert.RowBias.rows_apply (M := 512) (n := 512) bias broadcasts_S1x512_S512x512 p q)

/-! ## The input blocks at an entry

An entry of a block sits in its array, on each axis, at the block index times the block's extent plus its coordinate
inside the block. -/

/-- The left matrix's block (i, k) at (p, q) is the matrix at (512 i + p, 2048 k + q). -/
theorem left_block_apply (c : Dev nD) (t : Fin cfg0.N) (i k : ℕ) (hi : win0_0.index t (0 : Fin 2) = i) (hk : win0_0.index t (1 : Fin 2) = k)
    (p : Fin 512) (q : Fin 2048) (r s : Fin 4096) (hr : r.val = i * 512 + p.val) (hs : s.val = k * 2048 + q.val) :
    xblk0 V c t (ix2 p q) = xarr V c (ix2 r s) := by
  show V c main_arg0 (((cfg0.win 0).blk t).view.emb (ix2 p q)) = _
  refine congrArg (V c main_arg0) ?_
  funext a; apply Fin.ext
  match a with
  | ⟨0, _⟩ => show win0_0.index t (0 : Fin 2) * 512 + 1 * p.val = r.val; omega
  | ⟨1, _⟩ => show win0_0.index t (1 : Fin 2) * 2048 + 1 * q.val = s.val; omega

/-- The stored matrix's block (j, k) at (p, q) is the matrix at (512 j + p, 2048 k + q). -/
theorem stored_block_apply (c : Dev nD) (t : Fin cfg0.N) (j k : ℕ) (hj : win0_1.index t (0 : Fin 2) = j) (hk : win0_1.index t (1 : Fin 2) = k)
    (p : Fin 512) (q : Fin 2048) (r s : Fin 4096) (hr : r.val = j * 512 + p.val) (hs : s.val = k * 2048 + q.val) :
    wblk0 V c t (ix2 p q) = warr V c (ix2 r s) := by
  show V c main_arg1 (((cfg0.win 1).blk t).view.emb (ix2 p q)) = _
  refine congrArg (V c main_arg1) ?_
  funext a; apply Fin.ext
  match a with
  | ⟨0, _⟩ => show win0_1.index t (0 : Fin 2) * 512 + 1 * p.val = r.val; omega
  | ⟨1, _⟩ => show win0_1.index t (1 : Fin 2) * 2048 + 1 * q.val = s.val; omega

/-- The bias row's block (0, j) at (0, q) is the row at (0, 512 j + q). -/
theorem bias_block_apply (c : Dev nD) (t : Fin cfg0.N) (j : ℕ) (h0 : win0_2.index t (0 : Fin 2) = 0) (hj : win0_2.index t (1 : Fin 2) = j)
    (q : Fin 512) (s : Fin 4096) (hs : s.val = j * 512 + q.val) :
    bblk0 V c t (ix2 (0 : Fin 1) q) = barr V c (ix2 (0 : Fin 1) s) := by
  show V c main_v0 (((cfg0.win 2).blk t).view.emb (ix2 (0 : Fin 1) q)) = _
  refine congrArg (V c main_v0) ?_
  funext a; apply Fin.ext
  match a with
  | ⟨0, _⟩ => show win0_2.index t (0 : Fin 2) * 1 + 1 * 0 = 0; omega
  | ⟨1, _⟩ => show win0_2.index t (1 : Fin 2) * 512 + 1 * q.val = s.val; omega

/-! ## The two halves of the contraction -/

/-- A sum over 4096 terms is the sum of its first 2048 terms plus the sum of its last 2048, in any commutative monoid:
    only the order of the terms is used, nothing about the terms. -/
theorem sum_two_halves {M : Type*} [AddCommMonoid M] (f : Fin 4096 → M) :
    ∑ k : Fin 4096, f k
      = (∑ k : Fin 2048, f ⟨k.val, Nat.lt_of_lt_of_le k.isLt (by decide)⟩) + ∑ k : Fin 2048, f ⟨2048 + k.val, by have := k.isLt; omega⟩ :=
  Fin.sum_univ_add (a := 2048) (b := 2048) f

/-! ## The block an odd point writes -/

/-- At an odd point t, with i = t / 16 and j = (t / 2) mod 8, the stored block at (p, q) is the dense layer's entry
    (512 i + p, 512 j + q): the even point before left the first half of the contraction in the accumulator (onto zero),
    this point adds the second half, and the bias row's entry 512 j + q is the bias vector's. -/
theorem written_block_apply (c : Dev nD) (b : FVec Ideal S4096 .f32) (hb : V c main_v0 = shapeCast S1x4096 b shapeCasts_S4096_S1x4096)
    (t : Fin cfg0.N) (ht : t.val % 2 = 1) (p q : Fin 512) (r s : Fin 4096)
    (hr : r.val = t.val / 16 * 512 + p.val) (hs : s.val = t.val / 2 % 8 * 512 + q.val) :
    out0 V c t (ix2 p q) = Cert.Spec.denseAt (V c main_arg0) (V c main_arg1) b r s := by
  obtain ⟨e0, e1, e2, e3, e4, e5, e6, e7, e8, e9, e10, e11⟩ := block_indices t ht
  -- after the even point: zero plus the first half
  have hA : accA0 V c (prev0 t) (ix2 p q)
      = ∑ k : Fin 2048, xarr V c (ix2 r ⟨k.val, Nat.lt_of_lt_of_le k.isLt (by decide)⟩)
          * warr V c (ix2 s ⟨k.val, Nat.lt_of_lt_of_le k.isLt (by decide)⟩) := by
    refine (accumulate_apply (xblk0 V c (prev0 t)) (wblk0 V c (prev0 t)) (k0_pay1 (F := Ideal)) p q).trans ?_
    rw [zero_block_apply, zero_add]
    refine Finset.sum_congr rfl fun k _ => ?_
    exact congrArg₂ (· * ·)
      (left_block_apply V c (prev0 t) _ _ e2 e3 p k r ⟨k.val, Nat.lt_of_lt_of_le k.isLt (by decide)⟩ hr (by show k.val = 0 * 2048 + k.val; omega))
      (stored_block_apply V c (prev0 t) _ _ e6 e7 q k s ⟨k.val, Nat.lt_of_lt_of_le k.isLt (by decide)⟩ hs (by show k.val = 0 * 2048 + k.val; omega))
  -- after the odd point: that plus the second half
  have hB : accB0 V c t (ix2 p q)
      = accA0 V c (prev0 t) (ix2 p q)
        + ∑ k : Fin 2048, xarr V c (ix2 r ⟨2048 + k.val, by have := k.isLt; omega⟩)
          * warr V c (ix2 s ⟨2048 + k.val, by have := k.isLt; omega⟩) := by
    refine (accumulate_apply (xblk0 V c t) (wblk0 V c t) (accA0 V c (prev0 t)) p q).trans ?_
    refine congrArg (accA0 V c (prev0 t) (ix2 p q) + ·) ?_
    refine Finset.sum_congr rfl fun k _ => ?_
    exact congrArg₂ (· * ·)
      (left_block_apply V c t _ _ e0 e1 p k r ⟨2048 + k.val, by have := k.isLt; omega⟩ hr (by show 2048 + k.val = 1 * 2048 + k.val; omega))
      (stored_block_apply V c t _ _ e4 e5 q k s ⟨2048 + k.val, by have := k.isLt; omega⟩ hs (by show 2048 + k.val = 1 * 2048 + k.val; omega))
  -- the bias row is the bias vector laid out as one row
  have hbias : bblk0 V c t (ix2 (0 : Fin 1) q) = b (ix1 s) := by
    refine (bias_block_apply V c t _ e8 e9 q s hs).trans ?_
    refine (congrFun hb (ix2 (0 : Fin 1) s)).trans ?_
    exact Cert.RowBias.ofVec_apply (n := 4096) b shapeCasts_S4096_S1x4096 s
  refine (add_bias_apply (accB0 V c t) (bblk0 V c t) p q).trans ?_
  rw [hB, hA, hbias]
  unfold Cert.Spec.denseAt
  rw [sum_two_halves]

/-! ## From the blocks to the array -/

/-- What a writing point writes back is its block of the dense layer. -/
theorem flushed_eq (c : Dev nD) (b : FVec Ideal S4096 .f32) (hb : V c main_v0 = shapeCast S1x4096 b shapeCasts_S4096_S1x4096)
    (t : Fin cfg0.N) (hf : (cfg0.win 3).flush t = true) :
    (dat0 (F := Ideal) V c).flushed 3 t
      = ((cfg0.win 3).blk t).view.read (Elt Ideal) (Cert.Spec.dense (V c main_arg0) (V c main_arg1) b) := by
  have ht : t.val % 2 = 1 := (flush0_3 t).mp hf
  have hN : t.val < 128 := lt_of_lt_of_eq t.isLt N_0
  obtain ⟨e0, e1, e2, e3, e4, e5, e6, e7, e8, e9, e10, e11⟩ := block_indices t ht
  show (cfg0.win 3).cut (grid0.coords t) ((dat0 (F := Ideal) V c).after 3 t) = _
  rw [after0_3]
  funext y
  have hy0 : (y 0).val < 512 := (y 0).isLt
  have hy1 : (y 1).val < 512 := (y 1).isLt
  show out0 V c t y = Cert.Spec.dense (V c main_arg0) (V c main_arg1) b (((cfg0.win 3).blk t).view.emb y)
  have hemb : ((cfg0.win 3).blk t).view.emb y
      = ix2 (⟨t.val / 16 * 512 + (y 0).val, by omega⟩ : Fin 4096) (⟨t.val / 2 % 8 * 512 + (y 1).val, by omega⟩ : Fin 4096) := by
    funext a; apply Fin.ext
    match a with
    | ⟨0, _⟩ => show win0_3.index t (0 : Fin 2) * 512 + 1 * (y 0).val = t.val / 16 * 512 + (y 0).val; omega
    | ⟨1, _⟩ => show win0_3.index t (1 : Fin 2) * 512 + 1 * (y 1).val = t.val / 2 % 8 * 512 + (y 1).val; omega
  rw [hemb, Cert.Spec.dense_apply]
  refine (congrArg (out0 V c t) (eq_ix2 (n0 := 512) (n1 := 512) y)).trans ?_
  exact written_block_apply V c b hb t ht (y 0) (y 1) _ _ rfl rfl

/-- An entry of the array is in the output's block at point t iff, on each axis, it lies in the block's range. -/
theorem mem_out_block (t : Fin cfg0.N) (i : S4096x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v1).slice (win0_3.rect t)).set ↔ _
  rw [View.set_slice_whole, Rect.mem_set_unit]
  exact Iff.rfl

/-- Every entry (r, s) of the array lies in the block of a writing point: the odd point ((r / 512)·8 + s / 512)·2 + 1. -/
theorem out_blocks_cover (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  have hlt : ((i 0).val / 512 * 8 + (i 1).val / 512) * 2 + 1 < cfg0.N := by rw [show cfg0.N = 128 from N_0]; omega
  refine ⟨⟨((i 0).val / 512 * 8 + (i 1).val / 512) * 2 + 1, hlt⟩, (flush0_3 _).mpr (by show (((i 0).val / 512 * 8 + (i 1).val / 512) * 2 + 1) % 2 = 1; omega), ?_⟩
  obtain ⟨e0, e1, e2, e3, e4, e5, e6, e7, e8, e9, e10, e11⟩ := block_indices ⟨((i 0).val / 512 * 8 + (i 1).val / 512) * 2 + 1, hlt⟩ (by show (((i 0).val / 512 * 8 + (i 1).val / 512) * 2 + 1) % 2 = 1; omega)
  rw [mem_out_block]
  intro a
  match a with
  | ⟨0, _⟩ =>
    show win0_3.index _ (0 : Fin 2) * 512 ≤ (i 0).val ∧ (i 0).val < win0_3.index _ (0 : Fin 2) * 512 + 512
    rw [e10]
    show (((i 0).val / 512 * 8 + (i 1).val / 512) * 2 + 1) / 16 * 512 ≤ (i 0).val ∧ (i 0).val < (((i 0).val / 512 * 8 + (i 1).val / 512) * 2 + 1) / 16 * 512 + 512
    omega
  | ⟨1, _⟩ =>
    show win0_3.index _ (1 : Fin 2) * 512 ≤ (i 1).val ∧ (i 1).val < win0_3.index _ (1 : Fin 2) * 512 + 512
    rw [e11]
    show (((i 0).val / 512 * 8 + (i 1).val / 512) * 2 + 1) / 2 % 8 * 512 ≤ (i 1).val ∧ (i 1).val < (((i 0).val / 512 * 8 + (i 1).val / 512) * 2 + 1) / 2 % 8 * 512 + 512
    omega

/-- THE ARRAY AFTER THE LAST POINT: when the bias row the region reads is the bias vector b laid out as one row, the
    first region's output array ends holding the dense layer of the left matrix, the stored matrix and b. -/
theorem final0 (c : Dev nD) (b : FVec Ideal S4096 .f32) (hb : V c main_v0 = shapeCast S1x4096 b shapeCasts_S4096_S1x4096) :
    (dat0 (F := Ideal) V c).arrAt 3 cfg0.N = Cert.Spec.dense (V c main_arg0) (V c main_arg1) b :=
  (dat0 (F := Ideal) V c).arrAt_eq_of_cover 3 (Cert.Spec.dense (V c main_arg0) (V c main_arg1) b) (flushed_eq V c b hb) out_blocks_cover

end Cert.KernelIdeal.HandValue0

end
-- ==== Proof.KernelIdeal.Value1.lean ====
/-
  The value of the second kernel region's output array, on the extended reals.

  The region multiplies a [4096, 4096] matrix X by the rows of a stored [4096, 4096] matrix W, adds a bias row and applies
  a cosine whose small values have their sign flipped. It walks a grid 8 × 8 × 2: output block (i, j) of extent 512 × 512
  is built over two points. The opening point (k = 0) puts into a zeroed accumulator the product of X's block (i, 0)
  with W's block (j, 0), both 512 × 2048; the closing point (k = 1) adds the product of the blocks (i, 1) and (j, 1),
  adds the bias row's block (0, j) down the rows, takes the cosine, flips the small ones, and writes the block back.

  So entry (p, q) of the block written at the closing point of (i, j) is, with P = i·512 + p and Q = j·512 + q,

      flip (cos ((0 + ∑_{k < 2048} X[P, k] · W[Q, k]) + ∑_{k < 2048} X[P, 2048 + k] · W[Q, 2048 + k] + bias[0, Q])).

  The two half sums join into the sum over all 4096 columns (addition of extended reals is commutative and
  associative; nothing else is used), the one-row bias matrix is the bias vector laid out as a row, and hence the entry
  is the specification's: flip (cos (dense X W b (P, Q))). The closing points' blocks tile the output array — index
  (r, s) lies in the block of (r / 512, s / 512) — so the array ends holding that function at every index.

  The steps: the payloads read at an entry; the index maps decided once over the 128 points; a block's entry as its
  array's entry at block index × extent + offset; one output entry at a closing point; the cover; the array.
-/
import proofs.«139539_j81106162418172_1_alg».proof.Proof.KernelIdeal.Data1
import proofs.«139539_j81106162418172_1_alg».proof.Proof.Spec
import proofs.«139539_j81106162418172_1_alg».proof.Proof.LibDotRows
import proofs.«139539_j81106162418172_1_alg».proof.Proof.LibRowBias
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue1

open Cert.KernelIdeal Cert.KernelIdeal.Gen Cert.KernelIdeal.Hand
open Idealize.ShloMosaic Idealize.ShloMosaic.TcCoe Idealize.ShloMosaic.ValueIdx
open Idealize.ShloMosaic.Pipeline (Dat)

/-! ## The payloads read at an entry -/

/-- The printed dimension numbers contract both operands on their second axis: rows against rows. -/
theorem dot_is : dot_S512x2048_S512x2048_S512x512_1_1_0_0_n_n = DotDims.transposedRhs 512 2048 512 := rfl

/-- The zero block at an entry. -/
theorem pay1_apply (p q : Fin 512) : (k1_pay1 (F := Ideal)) (ix2 p q) = 0 := by
  unfold k1_pay1
  simp only [shapeCast_self]
  show Ideal.ofBits .f32 0x00000000#32 = 0
  exact Ideal.ofBits_zero_f32

/-- One step of the reduction at an entry: the accumulator's entry plus row p of the left block against row q of the
    stored block (the narrowing to bf16 changes nothing on the extended reals). -/
theorem pay2_apply (x w : FVec Ideal S512x2048 .f32) (s : FVec Ideal S512x512 .f32) (p q : Fin 512) :
    k1_pay2 (F := Ideal) x w s (ix2 p q) = s (ix2 p q) + ∑ k : Fin 2048, x (ix2 p k) * w (ix2 q k) := by
  unfold k1_pay2
  simp only [shapeCast_self]
  refine congrArg (s (ix2 p q) + ·) ?_
  exact Cert.DotRows.matmul_zero_apply (M := 512) (K := 2048) (N := 512) none x w p q

/-- The tail at an entry: the cosine of the accumulator's entry plus the bias row's entry of that column, its sign
    flipped when its magnitude is below the threshold (the kernel writes the negation as 0 − c). -/
theorem pay3_apply (acc : FVec Ideal S512x512 .f32) (bias : FVec Ideal S1x512 .f32) (p q : Fin 512) :
    k1_pay3 (F := Ideal) acc bias (ix2 p q) = Cert.Spec.flipAt (Ideal.cos (acc (ix2 p q) + bias (ix2 (0 : Fin 1) q))) := by
  unfold k1_pay3
  simp only [shapeCast_self]
  have hb : broadcastTo S512x512 bias broadcasts_S1x512_S512x512 (ix2 p q) = bias (ix2 (0 : Fin 1) q) :=
    Cert.RowBias.rows_apply bias broadcasts_S1x512_S512x512 p q
  show Scalar.select (Ideal.cmp .olt (max (Ideal.cos (acc (ix2 p q) + broadcastTo S512x512 bias broadcasts_S1x512_S512x512 (ix2 p q)))
        (-(Ideal.cos (acc (ix2 p q) + broadcastTo S512x512 bias broadcasts_S1x512_S512x512 (ix2 p q))))) (Ideal.ofBits .f32 0x3C23D70A#32))
      (Ideal.ofBits .f32 0x00000000#32 - Ideal.cos (acc (ix2 p q) + broadcastTo S512x512 bias broadcasts_S1x512_S512x512 (ix2 p q)))
      (Ideal.cos (acc (ix2 p q) + broadcastTo S512x512 bias broadcasts_S1x512_S512x512 (ix2 p q))) = _
  rw [hb, Ideal.ofBits_zero_f32, zero_sub]
  rfl

/-! ## The index maps over the grid

The point at position n = (i·8 + j)·2 + k has row block i = n / 16, column block j = (n / 2) % 8 and reduction half k = n % 2. -/

/-- At a closing point (k = 1) and at the opening point before it (k = 0): the left operand's block is (i, k), the stored
    matrix's block is (j, k), the bias row's block is (0, j), the output's block is (i, j). -/
theorem idx_facts : ∀ t : Fin cfg1.N, t.val % 2 = 1 →
    win1_0.index t (0 : Fin 2) = t.val / 16 ∧ win1_0.index t (1 : Fin 2) = 1
    ∧ win1_0.index (prev1 t) (0 : Fin 2) = t.val / 16 ∧ win1_0.index (prev1 t) (1 : Fin 2) = 0
    ∧ win1_1.index t (0 : Fin 2) = (t.val / 2) % 8 ∧ win1_1.index t (1 : Fin 2) = 1
    ∧ win1_1.index (prev1 t) (0 : Fin 2) = (t.val / 2) % 8 ∧ win1_1.index (prev1 t) (1 : Fin 2) = 0
    ∧ win1_2.index t (0 : Fin 2) = 0 ∧ win1_2.index t (1 : Fin 2) = (t.val / 2) % 8
    ∧ win1_3.index t (0 : Fin 2) = t.val / 16 ∧ win1_3.index t (1 : Fin 2) = (t.val / 2) % 8 :=
  (by decide +kernel : ∀ t : Fin grid1.N, t.val % 2 = 1 →
    win1_0.index t (0 : Fin 2) = t.val / 16 ∧ win1_0.index t (1 : Fin 2) = 1
    ∧ win1_0.index (prev1 t) (0 : Fin 2) = t.val / 16 ∧ win1_0.index (prev1 t) (1 : Fin 2) = 0
    ∧ win1_1.index t (0 : Fin 2) = (t.val / 2) % 8 ∧ win1_1.index t (1 : Fin 2) = 1
    ∧ win1_1.index (prev1 t) (0 : Fin 2) = (t.val / 2) % 8 ∧ win1_1.index (prev1 t) (1 : Fin 2) = 0
    ∧ win1_2.index t (0 : Fin 2) = 0 ∧ win1_2.index t (1 : Fin 2) = (t.val / 2) % 8
    ∧ win1_3.index t (0 : Fin 2) = t.val / 16 ∧ win1_3.index t (1 : Fin 2) = (t.val / 2) % 8)

/-! ## The blocks read at coordinates

A block's element sits in its array, on each axis, at the block's index times the block's extent plus the element's own
coordinate. -/

section Value

variable (V : (c : Dev nD) → (b : Ref sig .tc) → Buf (Elt Ideal) ((c : Thread nD τ).loc b))

/-- The left operand's block at (p, r) is the array at (P, R) = (i·512 + p, k·2048 + r), (i, k) the block's index. -/
theorem xblk1_apply (c : Dev nD) (t : Fin cfg1.N) (i k : ℕ) (h0 : win1_0.index t (0 : Fin 2) = i) (h1 : win1_0.index t (1 : Fin 2) = k)
    (p : Fin 512) (r : Fin 2048) (P R : Fin 4096) (hP : P.val = i * 512 + p.val) (hR : R.val = k * 2048 + r.val) :
    xblk1 V c t (ix2 p r) = (V c main_v1 : S4096x4096.Idx → Ideal .f32) (ix2 P R) := by
  show (V c main_v1 : S4096x4096.Idx → Ideal .f32) (((cfg1.win 0).blk t).view.emb (ix2 p r)) = _
  refine congrArg _ (funext fun a => Fin.ext ?_)
  match a with
  | ⟨0, _⟩ => show win1_0.index t (0 : Fin 2) * 512 + 1 * p.val = P.val; rw [h0, hP]; omega
  | ⟨1, _⟩ => show win1_0.index t (1 : Fin 2) * 2048 + 1 * r.val = R.val; rw [h1, hR]; omega

/-- The stored matrix's block at (q, r) is the array at (Q, R) = (j·512 + q, k·2048 + r), (j, k) the block's index. -/
theorem wblk1_apply (c : Dev nD) (t : Fin cfg1.N) (j k : ℕ) (h0 : win1_1.index t (0 : Fin 2) = j) (h1 : win1_1.index t (1 : Fin 2) = k)
    (q : Fin 512) (r : Fin 2048) (Q R : Fin 4096) (hQ : Q.val = j * 512 + q.val) (hR : R.val = k * 2048 + r.val) :
    wblk1 V c t (ix2 q r) = (V c main_arg3 : S4096x4096.Idx → Ideal .f32) (ix2 Q R) := by
  show (V c main_arg3 : S4096x4096.Idx → Ideal .f32) (((cfg1.win 1).blk t).view.emb (ix2 q r)) = _
  refine congrArg _ (funext fun a => Fin.ext ?_)
  match a with
  | ⟨0, _⟩ => show win1_1.index t (0 : Fin 2) * 512 + 1 * q.val = Q.val; rw [h0, hQ]; omega
  | ⟨1, _⟩ => show win1_1.index t (1 : Fin 2) * 2048 + 1 * r.val = R.val; rw [h1, hR]; omega

/-- The bias row's block at (0, q) is the one-row array at (0, Q), Q = j·512 + q, (0, j) the block's index. -/
theorem bblk1_apply (c : Dev nD) (t : Fin cfg1.N) (j : ℕ) (h0 : win1_2.index t (0 : Fin 2) = 0) (h1 : win1_2.index t (1 : Fin 2) = j)
    (q : Fin 512) (Q : Fin 4096) (hQ : Q.val = j * 512 + q.val) :
    bblk1 V c t (ix2 (0 : Fin 1) q) = (V c main_v2 : S1x4096.Idx → Ideal .f32) (ix2 (0 : Fin 1) Q) := by
  show (V c main_v2 : S1x4096.Idx → Ideal .f32) (((cfg1.win 2).blk t).view.emb (ix2 (0 : Fin 1) q)) = _
  refine congrArg _ (funext fun a => Fin.ext ?_)
  match a with
  | ⟨0, _⟩ => show win1_2.index t (0 : Fin 2) * 1 + 1 * 0 = 0; rw [h0]
  | ⟨1, _⟩ => show win1_2.index t (1 : Fin 2) * 512 + 1 * q.val = Q.val; rw [h1, hQ]; omega

/-! ## One output entry at a closing point -/

/-- A sum of 4096 terms is the sum of its first 2048 plus the sum of its last 2048. -/
theorem sum_halves (f : Fin 4096 → EReal) :
    (∑ k : Fin 4096, f k) = (∑ k : Fin 2048, f ⟨k.val, Nat.lt_of_lt_of_le k.isLt (by decide)⟩)
      + ∑ k : Fin 2048, f ⟨2048 + k.val, by have := k.isLt; omega⟩ :=
  Fin.sum_univ_add (a := 2048) (b := 2048) f

/-- The region's left operand array and its stored matrix, as matrices of extended reals. -/
abbrev lhsArr (c : Dev nD) : FVec Ideal S4096x4096 .f32 := V c main_v1
abbrev matArr (c : Dev nD) : FVec Ideal S4096x4096 .f32 := V c main_arg3

/-- What the output array ends holding: the cosine of the dense layer of the region's two matrices and the bias vector,
    the small cosines' signs flipped. -/
def G (c : Dev nD) (b : FVec Ideal S4096 .f32) : S4096x4096.Idx → Ideal .f32 :=
  fun j => Cert.Spec.flipAt (Ideal.cos (Cert.Spec.dense (V c main_v1) (V c main_arg3) b j))

/-- At the closing point of output block (i, j), entry (p, q) of the stored block is the spec's entry (P, Q) =
    (i·512 + p, j·512 + q): the accumulator holds zero plus the first half of row P against row Q plus the second half,
    the two halves join into the whole sum, and the bias row's entry is the bias vector's entry Q. -/
theorem out1_apply (c : Dev nD) (b : FVec Ideal S4096 .f32) (hb : V c main_v2 = shapeCast S1x4096 b shapeCasts_S4096_S1x4096)
    (t : Fin cfg1.N) (ho : t.val % 2 = 1) (p q : Fin 512) (P Q : Fin 4096)
    (hP : P.val = t.val / 16 * 512 + p.val) (hQ : Q.val = (t.val / 2) % 8 * 512 + q.val) :
    out1 V c t (ix2 p q) = Cert.Spec.flipAt (Ideal.cos (Cert.Spec.denseAt (V c main_v1) (V c main_arg3) b P Q)) := by
  obtain ⟨e0, e1, e2, e3, e4, e5, e6, e7, e8, e9, -, -⟩ := idx_facts t ho
  refine (pay3_apply (accB1 V c t) (bblk1 V c t) p q).trans (congrArg Cert.Spec.flipAt (congrArg Ideal.cos ?_))
  rw [show accB1 V c t (ix2 p q) = _ from pay2_apply (xblk1 V c t) (wblk1 V c t) (accA1 V c (prev1 t)) p q,
    show accA1 V c (prev1 t) (ix2 p q) = _ from pay2_apply (xblk1 V c (prev1 t)) (wblk1 V c (prev1 t)) k1_pay1 p q,
    pay1_apply, zero_add]
  have hA : (∑ k : Fin 2048, xblk1 V c (prev1 t) (ix2 p k) * wblk1 V c (prev1 t) (ix2 q k))
      = ∑ k : Fin 2048, lhsArr V c (ix2 P ⟨k.val, Nat.lt_of_lt_of_le k.isLt (by decide)⟩)
          * matArr V c (ix2 Q ⟨k.val, Nat.lt_of_lt_of_le k.isLt (by decide)⟩) :=
    Finset.sum_congr rfl fun k _ => by
      rw [xblk1_apply V c (prev1 t) _ _ e2 e3 p k P ⟨k.val, Nat.lt_of_lt_of_le k.isLt (by decide)⟩ hP (by show k.val = 0 * 2048 + k.val; omega),
        wblk1_apply V c (prev1 t) _ _ e6 e7 q k Q ⟨k.val, Nat.lt_of_lt_of_le k.isLt (by decide)⟩ hQ (by show k.val = 0 * 2048 + k.val; omega)]
  have hB : (∑ k : Fin 2048, xblk1 V c t (ix2 p k) * wblk1 V c t (ix2 q k))
      = ∑ k : Fin 2048, lhsArr V c (ix2 P ⟨2048 + k.val, by have := k.isLt; omega⟩)
          * matArr V c (ix2 Q ⟨2048 + k.val, by have := k.isLt; omega⟩) :=
    Finset.sum_congr rfl fun k _ => by
      rw [xblk1_apply V c t _ _ e0 e1 p k P ⟨2048 + k.val, by have := k.isLt; omega⟩ hP (by show 2048 + k.val = 1 * 2048 + k.val; omega),
        wblk1_apply V c t _ _ e4 e5 q k Q ⟨2048 + k.val, by have := k.isLt; omega⟩ hQ (by show 2048 + k.val = 1 * 2048 + k.val; omega)]
  have hC : bblk1 V c t (ix2 (0 : Fin 1) q) = b (ix1 Q) :=
    (bblk1_apply V c t _ e8 e9 q Q hQ).trans ((congrFun hb (ix2 (0 : Fin 1) Q)).trans (Cert.RowBias.ofVec_apply b shapeCasts_S4096_S1x4096 Q))
  rw [hA, hB, hC]
  exact congrArg (· + b (ix1 Q)) (sum_halves fun k => lhsArr V c (ix2 P k) * matArr V c (ix2 Q k)).symm

/-- The same over an index of the block and an index of the array that sit at the stated offsets. -/
theorem out1_eq (c : Dev nD) (b : FVec Ideal S4096 .f32) (hb : V c main_v2 = shapeCast S1x4096 b shapeCasts_S4096_S1x4096)
    (t : Fin cfg1.N) (ho : t.val % 2 = 1) (y : S512x512.Idx) (J : S4096x4096.Idx)
    (h0 : (J 0).val = t.val / 16 * 512 + (y 0).val) (h1 : (J 1).val = (t.val / 2) % 8 * 512 + (y 1).val) :
    out1 V c t y = G V c b J := by
  rw [eq_ix2 y, eq_ix2 J]
  exact out1_apply V c b hb t ho (y 0) (y 1) (J 0) (J 1) h0 h1

/-! ## From blocks to the array -/

/-- An index of the output array is in point t's block iff each coordinate is in the block's range on its axis. -/
theorem mem_blk3 (t : Fin cfg1.N) (i : S4096x4096.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v3).slice (win1_3.rect t)).set ↔ _
  rw [View.set_slice_whole, Rect.mem_set_unit]
  exact Iff.rfl

/-- What a closing point writes back is its block of G. -/
theorem flushed_eq (c : Dev nD) (b : FVec Ideal S4096 .f32) (hb : V c main_v2 = shapeCast S1x4096 b shapeCasts_S4096_S1x4096)
    (t : Fin cfg1.N) (hf : (cfg1.win 3).flush t = true) :
    (dat1 (F := Ideal) V c).flushed 3 t = ((cfg1.win 3).blk t).view.read (Elt Ideal) (G V c b) := by
  have ho : t.val % 2 = 1 := (flush1_3 t).mp hf
  obtain ⟨-, -, -, -, -, -, -, -, -, -, e10, e11⟩ := idx_facts t ho
  show (cfg1.win 3).cut (grid1.coords t) ((dat1 (F := Ideal) V c).after 3 t) = _
  rw [after1_3]
  funext y
  show out1 V c t y = G V c b (((cfg1.win 3).blk t).view.emb y)
  refine out1_eq V c b hb t ho y _ ?_ ?_
  · show win1_3.index t (0 : Fin 2) * 512 + 1 * (y 0).val = _
    rw [e10]; omega
  · show win1_3.index t (1 : Fin 2) * 512 + 1 * (y 1).val = _
    rw [e11]; omega

/-- Every index (r, s) of the output array lies in the block of the closing point of output block (r / 512, s / 512). -/
theorem cover3 (i : S4096x4096.Idx) : ∃ t : Fin cfg1.N, (cfg1.win 3).flush t = true ∧ i ∈ ((cfg1.win 3).blk t).view.set := by
  have h0 : (i 0).val < 4096 := (i 0).isLt
  have h1 : (i 1).val < 4096 := (i 1).isLt
  have hlt : ((i 0).val / 512 * 8 + (i 1).val / 512) * 2 + 1 < cfg1.N := by show _ < 128; omega
  have ho : (⟨((i 0).val / 512 * 8 + (i 1).val / 512) * 2 + 1, hlt⟩ : Fin cfg1.N).val % 2 = 1 := by
    show (((i 0).val / 512 * 8 + (i 1).val / 512) * 2 + 1) % 2 = 1; omega
  obtain ⟨-, -, -, -, -, -, -, -, -, -, e10, e11⟩ := idx_facts _ ho
  refine ⟨_, (flush1_3 _).mpr ho, (mem_blk3 _ i).mpr fun a => ?_⟩
  match a with
  | ⟨0, _⟩ =>
    show win1_3.index _ (0 : Fin 2) * 512 ≤ (i 0).val ∧ (i 0).val < win1_3.index _ (0 : Fin 2) * 512 + 512
    rw [e10]
    show (((i 0).val / 512 * 8 + (i 1).val / 512) * 2 + 1) / 16 * 512 ≤ (i 0).val ∧ (i 0).val < (((i 0).val / 512 * 8 + (i 1).val / 512) * 2 + 1) / 16 * 512 + 512
    omega
  | ⟨1, _⟩ =>
    show win1_3.index _ (1 : Fin 2) * 512 ≤ (i 1).val ∧ (i 1).val < win1_3.index _ (1 : Fin 2) * 512 + 512
    rw [e11]
    show (((i 0).val / 512 * 8 + (i 1).val / 512) * 2 + 1) / 2 % 8 * 512 ≤ (i 1).val ∧ (i 1).val < (((i 0).val / 512 * 8 + (i 1).val / 512) * 2 + 1) / 2 % 8 * 512 + 512
    omega

/-- THE OUTPUT ARRAY after the region: at every index the cosine of the dense layer of the left operand's array, the
    stored matrix and the bias vector, the small cosines' signs flipped. -/
theorem final1 (c : Dev nD) (b : FVec Ideal S4096 .f32) (hb : V c main_v2 = shapeCast S1x4096 b shapeCasts_S4096_S1x4096) :
    (dat1 (F := Ideal) V c).arrAt 3 cfg1.N = fun j => Cert.Spec.flipAt (Ideal.cos (Cert.Spec.dense (V c main_v1) (V c main_arg3) b j)) :=
  (dat1 (F := Ideal) V c).arrAt_eq_of_cover 3 (G V c b) (flushed_eq V c b hb) cover3

end Value

end Cert.KernelIdeal.HandValue1

end
-- ==== Proof.RefValue.lean ====
/-
  The reference's result, index by index, is the shared function of the argument arrays.

  The reference is two dense layers and a pointwise tail. On the extended reals each product against a stored weight
  matrix is, at (p, q), the sum over k of the left operand at (p, k) times the weights at (q, k), and each bias, a vector
  laid out as one row and repeated down the rows, holds at (p, q) its entry q: so each layer's entry is the shared
  dense layer's entry, the second layer taking the first as its left operand under the sum. The tail is the cosine of
  that entry, its magnitude compared with the threshold word, and the choice between the cosine and its negation: the
  shared sign flip, operation for operation.
-/
import proofs.«139539_j81106162418172_1_alg».proof.Proof.Gen.ReferenceIdeal.Read
import proofs.«139539_j81106162418172_1_alg».proof.Proof.Spec
import Idealize.ShloMosaic.PureOps.Ideal.Laws
import Idealize.ShloMosaic.Lib.ValueIdx
import Idealize.ShloMosaic.Lib.StableHlo.Run

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The index functions at a pair of coordinates -/

/-- The first product's left operand is read at (p, k). -/
theorem lidx0 (p q k : Fin 4096) : lidx_main_v0 (ix2 p q) k = ix2 p k :=
  funext fun a => Fin.ext (by match a with | ⟨0, _⟩ => rfl | ⟨1, _⟩ => rfl)

/-- The first product's weights are read at (q, k). -/
theorem ridx0 (p q k : Fin 4096) : ridx_main_v0 (ix2 p q) k = ix2 q k :=
  funext fun a => Fin.ext (by match a with | ⟨0, _⟩ => rfl | ⟨1, _⟩ => rfl)

/-- The second product's left operand is read at (p, k). -/
theorem lidx4 (p q k : Fin 4096) : lidx_main_v4 (ix2 p q) k = ix2 p k :=
  funext fun a => Fin.ext (by match a with | ⟨0, _⟩ => rfl | ⟨1, _⟩ => rfl)

/-- The second product's weights are read at (q, k). -/
theorem ridx4 (p q k : Fin 4096) : ridx_main_v4 (ix2 p q) k = ix2 q k :=
  funext fun a => Fin.ext (by match a with | ⟨0, _⟩ => rfl | ⟨1, _⟩ => rfl)

/-- The first bias, laid out as a row and repeated down the rows, is read at q. -/
theorem bidx2 (p q : Fin 4096) : idx_main_v1 (idx_main_v2 (ix2 p q)) = ix1 q :=
  funext fun a => Fin.ext (by match a with | ⟨0, _⟩ => rfl)

/-- The second bias likewise. -/
theorem bidx6 (p q : Fin 4096) : idx_main_v5 (idx_main_v6 (ix2 p q)) = ix1 q :=
  funext fun a => Fin.ext (by match a with | ⟨0, _⟩ => rfl)

/-! ## The first dense layer -/

/-- Entry (p, q) of the first layer: row p of the input against row q of the weights, plus the bias at q. -/
theorem h_at (x0 x1 : (⟨S4096x4096, .f32⟩ : BufTy).Contents (Elt Ideal)) (x2 : (⟨S4096, .f32⟩ : BufTy).Contents (Elt Ideal))
    (p q : Fin 4096) :
    val_main_v3 (F := Ideal) x0 x1 x2 (ix2 p q) = Cert.Spec.denseAt x0 x1 x2 p q := by
  rw [val_main_v3_apply, val_main_v0_apply, val_main_v2_apply, val_main_v1_apply, bidx2, Ideal.addf_def]
  simp only [lidx0, ridx0]
  unfold Cert.Spec.denseAt
  rfl

/-- The first layer as a whole array is the shared dense layer. -/
theorem h_eq (x0 x1 : (⟨S4096x4096, .f32⟩ : BufTy).Contents (Elt Ideal)) (x2 : (⟨S4096, .f32⟩ : BufTy).Contents (Elt Ideal)) :
    val_main_v3 (F := Ideal) x0 x1 x2 = Cert.Spec.dense x0 x1 x2 := by
  funext i
  obtain ⟨p, q, rfl⟩ : ∃ (p q : Fin 4096), i = ix2 p q := ⟨i 0, i 1, eq_ix2 i⟩
  exact h_at x0 x1 x2 p q

/-! ## The second dense layer and the cosine -/

/-- Entry (p, q) of the second layer: the shared dense layer of the first layer's array. -/
theorem pre_at (x0 x1 : (⟨S4096x4096, .f32⟩ : BufTy).Contents (Elt Ideal)) (x2 : (⟨S4096, .f32⟩ : BufTy).Contents (Elt Ideal))
    (x3 : (⟨S4096x4096, .f32⟩ : BufTy).Contents (Elt Ideal)) (x4 : (⟨S4096, .f32⟩ : BufTy).Contents (Elt Ideal)) (p q : Fin 4096) :
    val_main_v7 (F := Ideal) x0 x1 x2 x3 x4 (ix2 p q) = Cert.Spec.denseAt (Cert.Spec.dense x0 x1 x2) x3 x4 p q := by
  rw [val_main_v7_apply, val_main_v4_apply, val_main_v6_apply, val_main_v5_apply, bidx6, h_eq, Ideal.addf_def]
  simp only [lidx4, ridx4]
  unfold Cert.Spec.denseAt
  rfl

/-- Entry (p, q) of the cosine stage. -/
theorem cos_at (x0 x1 : (⟨S4096x4096, .f32⟩ : BufTy).Contents (Elt Ideal)) (x2 : (⟨S4096, .f32⟩ : BufTy).Contents (Elt Ideal))
    (x3 : (⟨S4096x4096, .f32⟩ : BufTy).Contents (Elt Ideal)) (x4 : (⟨S4096, .f32⟩ : BufTy).Contents (Elt Ideal)) (p q : Fin 4096) :
    val_main_v8 (F := Ideal) x0 x1 x2 x3 x4 (ix2 p q)
      = Ideal.cos (Cert.Spec.denseAt (Cert.Spec.dense x0 x1 x2) x3 x4 p q) := by
  rw [val_main_v8_apply, Ideal.hostUnary_cos_def, pre_at]

/-! ## The pointwise tail -/

/-- The tail on one cosine: magnitude against the threshold word, then the choice of sign. -/
theorem tail_eq (c : Ideal .f32) :
    Scalar.select (FloatOps.cmpf (F := Ideal) .olt (FloatOps.hostAbsf c) (FloatOps.ofBits (F := Ideal) .f32 0x3C23D70A#32))
        (FloatOps.hostNegf c) c
      = Cert.Spec.flipAt c := by
  rw [Ideal.hostAbsf_def, Ideal.hostNegf_def, Ideal.negf_def, Ideal.ofBits_def]
  unfold Cert.Spec.flipAt
  rfl

/-! ## The interface -/

/-- The reference's result stage is the shared function of the five argument arrays. -/
theorem stage_eq (x0 x1 : (⟨Cert.ReferenceIdeal.S4096x4096, .f32⟩ : BufTy).Contents (Elt Ideal))
    (x2 : (⟨Cert.ReferenceIdeal.S4096, .f32⟩ : BufTy).Contents (Elt Ideal))
    (x3 : (⟨Cert.ReferenceIdeal.S4096x4096, .f32⟩ : BufTy).Contents (Elt Ideal))
    (x4 : (⟨Cert.ReferenceIdeal.S4096, .f32⟩ : BufTy).Contents (Elt Ideal)) :
    Cert.ReferenceIdeal.Read.val_main_v13 (F := Ideal) x0 x1 x2 x3 x4 = Cert.Spec.result x0 x1 x2 x3 x4 := by
  funext i
  obtain ⟨p, q, rfl⟩ : ∃ (p q : Fin 4096), i = ix2 p q := ⟨i 0, i 1, eq_ix2 i⟩
  rw [val_main_v13_apply, val_main_v11_apply, val_main_v12_apply, val_main_v9_apply, val_main_v10_apply,
    val_main_cst_apply, cos_at, tail_eq, Cert.Spec.result_apply]

/-- Every weakly fair execution of the reference terminates with its result array holding the shared function of
    the five argument arrays' launch contents, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v13)
          = Cert.Spec.result (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
            = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4)
            = m ((c.tc : Thread Cert.ReferenceIdeal.nD Cert.ReferenceIdeal.τ).loc Cert.ReferenceIdeal.main_arg4) :=
  (θ_run _ _ _).mono
    (fun _ h c => ⟨(h c).1.trans
        ((val_main_v13_eq (F := Ideal)
            (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))).trans
          (stage_eq _ _ _ _ _)),
      (h c).2⟩)
    (Cert.ReferenceIdeal.Value.run (F := Ideal) m ρ)

end Cert.ReferenceIdeal.RefValue

end
-- ==== Proof.lean ====
/-
  The certificate: two chained matrix products with fused tails, as Pallas kernels, against their jnp reference.

  The kernel program runs two pallas_calls. The first computes h = x · Wᵀ + b over a grid 8 × 8 × 2: for each 512 × 512
  output block the reduction axis has two points; the first zeroes a VMEM accumulator and adds the product of the first
  half of the contraction, the second adds the other half and stores the block with the bias row added. The second
  pallas_call does the same with h · gᵀ + g_bias and applies the cosine and the sign flip of the small cosines before
  storing. The reference is the same two dense layers as whole-array host operations. On the extended reals a change of
  float format is the identity and a sum may be split and regrouped freely, so both programs compute one function of
  the five arguments (Proof/Spec.lean); the precondition is never opened.

  The frames of the two kernel programs are one text, generic in the float instance: each region's proof data carry the
  accumulator's contents between grid points in the region invariant (Proof/KernelIdeal/Data0.lean, Data1.lean), the
  bodies are run on any whole memrefs in their two control cases (Runs0.lean, Runs1.lean), and the launch composes the
  host reshapes and the two regions over named valuations of the unscoped buffers (Launch.lean). The value of each
  region's output array is read off its write-backs (Value0.lean, Value1.lean) and the reference's off its run
  (Proof/RefValue.lean).
-/
import proofs.«139539_j81106162418172_1_alg».proof.Defs
import proofs.«139539_j81106162418172_1_alg».proof.Proof.Gen.Kernel
import proofs.«139539_j81106162418172_1_alg».proof.Proof.Gen.KernelIdeal
import proofs.«139539_j81106162418172_1_alg».proof.Proof.Gen.ReferenceIdeal
import proofs.«139539_j81106162418172_1_alg».proof.Proof.Gen.Pre_finite_inputs
import proofs.«139539_j81106162418172_1_alg».proof.Proof.Kernel.Launch
import proofs.«139539_j81106162418172_1_alg».proof.Proof.KernelIdeal.Result
import proofs.«139539_j81106162418172_1_alg».proof.Proof.KernelIdeal.Value0
import proofs.«139539_j81106162418172_1_alg».proof.Proof.KernelIdeal.Value1
import proofs.«139539_j81106162418172_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame (F := Bits) m ρ

/-- So does the idealized one. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- Both idealized programs end with the result array at the one function of the arguments. -/
theorem algebraic : Cert.algebraic_KernelIdeal_ReferenceIdeal := by
  intro m ρ m' ρ' _ hagree
  refine ⟨_, Cert.KernelIdeal.Hand.run_value m ρ Cert.KernelIdeal.HandValue0.final0 Cert.KernelIdeal.HandValue1.final1, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
